-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x2 : Shape := ⟨2, ![40000, 2]⟩
abbrev S640000 : Shape := ⟨1, ![640000]⟩
abbrev S2x128 : Shape := ⟨2, ![2, 128]⟩
abbrev S128 : Shape := ⟨1, ![128]⟩
abbrev S128x128 : Shape := ⟨2, ![128, 128]⟩
abbrev S_ : Shape := ⟨0, ![]⟩

class Facts : Prop where
  bcast_S_S40000x2 : S_.BroadcastsInDim S40000x2 (![] : Fin 0 → Fin S40000x2.rank)
  reducesTo_S40000x2_S_d0_1 : S40000x2.ReducesTo [0, 1] S_
  h_S_ : 0 < S_.numel
  bcast_S_S2x128 : S_.BroadcastsInDim S2x128 (![] : Fin 0 → Fin S2x128.rank)
  reducesTo_S2x128_S_d0_1 : S2x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S40000x2 .f32) (main_arg1 : IVec S640000 32) (main_arg2 : IVec S640000 32) (main_arg3 : FVec F S2x128 .f32) (main_arg4 : FVec F S128 .f32) (main_arg5 : FVec F S128x128 .f32) (main_arg6 : FVec F S128 .f32) : IVec S_ 1 :=
  let main_v0 : FVec F S40000x2 .f32 := Host.absf main_arg0
  let main_cst : FVec F S_ .f32 := constant S_ .f32 0x7F800000#32
  let main_v1 : FVec F S40000x2 .f32 := broadcastInDim S40000x2 ![] bcast_S_S40000x2 main_cst
  let main_v2 : IVec S40000x2 1 := cmpf .olt main_v0 main_v1
  let main_c : IVec S_ 1 := constantI S_ 1 1#1
  let main_v3 : IVec S_ 1 := (fun x v => Host.reduce IntOp.andi x v reducesTo_S40000x2_S_d0_1 h_S_) main_v2 main_c
  let main_v4 : FVec F S2x128 .f32 := Host.absf main_arg3
  let main_cst_0 : FVec F S_ .f32 := constant S_ .f32 0x7F800000#32
  let main_v5 : FVec F S2x128 .f32 := broadcastInDim S2x128 ![] bcast_S_S2x128 main_cst_0
  let main_v6 : IVec S2x128 1 := cmpf .olt main_v4 main_v5
  let main_c_1 : IVec S_ 1 := constantI S_ 1 1#1
  let main_v7 : IVec S_ 1 := (fun x v => Host.reduce IntOp.andi x v reducesTo_S2x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S40000x2 : Shape := ⟨2, ![40000, 2]⟩
abbrev S640000 : Shape := ⟨1, ![640000]⟩
abbrev S2x128 : Shape := ⟨2, ![2, 128]⟩
abbrev S128 : Shape := ⟨1, ![128]⟩
abbrev S128x128 : Shape := ⟨2, ![128, 128]⟩
abbrev S_ : Shape := ⟨0, ![]⟩
abbrev S40000 : Shape := ⟨1, ![40000]⟩
abbrev S640000x1 : Shape := ⟨2, ![640000, 1]⟩
abbrev S40000x1 : Shape := ⟨2, ![40000, 1]⟩
abbrev S640000x2 : Shape := ⟨2, ![640000, 2]⟩
abbrev S1x128 : Shape := ⟨2, ![1, 128]⟩
abbrev S40000x128 : Shape := ⟨2, ![40000, 128]⟩
abbrev S4000x2 : Shape := ⟨2, ![4000, 2]⟩
abbrev S4000x1 : Shape := ⟨2, ![4000, 1]⟩
abbrev S4000x128 : Shape := ⟨2, ![4000, 128]⟩
abbrev S640000x128 : Shape := ⟨2, ![640000, 128]⟩
abbrev S5120x128 : Shape := ⟨2, ![5120, 128]⟩
abbrev S5120 : Shape := ⟨1, ![5120]⟩

abbrev nBuf : Space → Nat
  | .hbm => 102
  | .vmem => 22
  | .smem => 0
  | _ => 0

abbrev bufTy : (tb : Table) → Fin (tcTables nBuf tb) → BufTy
  | .hbm, ⟨0, _⟩ => ⟨S40000x2, .f32⟩
  | .hbm, ⟨1, _⟩ => ⟨S640000, .i32⟩
  | .hbm, ⟨2, _⟩ => ⟨S640000, .i32⟩
  | .hbm, ⟨3, _⟩ => ⟨S2x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .f32⟩
  | .hbm, ⟨8, _⟩ => ⟨S640000, .f32⟩
  | .hbm, ⟨9, _⟩ => ⟨S_, .f32⟩
  | .hbm, ⟨10, _⟩ => ⟨S40000, .f32⟩
  | .hbm, ⟨11, _⟩ => ⟨S640000x1, .i32⟩
  | .hbm, ⟨12, _⟩ => ⟨S40000, .f32⟩
  | .hbm, ⟨13, _⟩ => ⟨S_, .f32⟩
  | .hbm, ⟨14, _⟩ => ⟨S_, .f32⟩
  | .hbm, ⟨15, _⟩ => ⟨S40000, .f32⟩
  | .hbm, ⟨16, _⟩ => ⟨S40000, .f32⟩
  | .hbm, ⟨17, _⟩ => ⟨S_, .f32⟩
  | .hbm, ⟨18, _⟩ => ⟨S40000, .f32⟩
  | .hbm, ⟨19, _⟩ => ⟨S640000x1, .i32⟩
  | .hbm, ⟨20, _⟩ => ⟨S40000, .f32⟩
  | .hbm, ⟨21, _⟩ => ⟨S_, .f32⟩
  | .hbm, ⟨22, _⟩ => ⟨S_, .f32⟩
  | .hbm, ⟨23, _⟩ => ⟨S40000, .f32⟩
  | .hbm, ⟨24, _⟩ => ⟨S40000, .f32⟩
  | .hbm, ⟨25, _⟩ => ⟨S40000, .f32⟩
  | .hbm, ⟨26, _⟩ => ⟨S40000x1, .f32⟩
  | .hbm, ⟨27, _⟩ => ⟨S40000x2, .f32⟩
  | .hbm, ⟨28, _⟩ => ⟨S40000x2, .f32⟩
  | .hbm, ⟨29, _⟩ => ⟨S_, .i32⟩
  | .hbm, ⟨30, _⟩ => ⟨S640000, .i32⟩
  | .hbm, ⟨31, _⟩ => ⟨S640000, .i1⟩
  | .hbm, ⟨32, _⟩ => ⟨S_, .i32⟩
  | .hbm, ⟨33, _⟩ => ⟨S640000, .i32⟩
  | .hbm, ⟨34, _⟩ => ⟨S640000, .i32⟩
  | .hbm, ⟨35, _⟩ => ⟨S640000, .i32⟩
  | .hbm, ⟨36, _⟩ => ⟨S640000x1, .i32⟩
  | .hbm, ⟨37, _⟩ => ⟨S640000x2, .f32⟩
  | .hbm, ⟨38, _⟩ => ⟨S_, .f32⟩
  | .hbm, ⟨39, _⟩ => ⟨S40000x2, .f32⟩
  | .hbm, ⟨40, _⟩ => ⟨S640000x1, .i32⟩
  | .hbm, ⟨41, _⟩ => ⟨S40000x2, .f32⟩
  | .hbm, ⟨42, _⟩ => ⟨S40000x1, .f32⟩
  | .hbm, ⟨43, _⟩ => ⟨S1x128, .f32⟩
  | .hbm, ⟨44, _⟩ => ⟨S40000x128, .f32⟩
  | .hbm, ⟨45, _⟩ => ⟨S_, .f32⟩
  | .hbm, ⟨46, _⟩ => ⟨S640000, .f32⟩
  | .hbm, ⟨47, _⟩ => ⟨S_, .f32⟩
  | .hbm, ⟨48, _⟩ => ⟨S40000, .f32⟩
  | .hbm, ⟨49, _⟩ => ⟨S640000x1, .i32⟩
  | .hbm, ⟨50, _⟩ => ⟨S40000, .f32⟩
  | .hbm, ⟨51, _⟩ => ⟨S_, .f32⟩
  | .hbm, ⟨52, _⟩ => ⟨S_, .f32⟩
  | .hbm, ⟨53, _⟩ => ⟨S40000, .f32⟩
  | .hbm, ⟨54, _⟩ => ⟨S40000, .f32⟩
  | .hbm, ⟨55, _⟩ => ⟨S_, .f32⟩
  | .hbm, ⟨56, _⟩ => ⟨S40000, .f32⟩
  | .hbm, ⟨57, _⟩ => ⟨S640000x1, .i32⟩
  | .hbm, ⟨58, _⟩ => ⟨S40000, .f32⟩
  | .hbm, ⟨59, _⟩ => ⟨S_, .f32⟩
  | .hbm, ⟨60, _⟩ => ⟨S_, .f32⟩
  | .hbm, ⟨61, _⟩ => ⟨S40000, .f32⟩
  | .hbm, ⟨62, _⟩ => ⟨S40000, .f32⟩
  | .hbm, ⟨63, _⟩ => ⟨S40000, .f32⟩
  | .hbm, ⟨64, _⟩ => ⟨S40000x1, .f32⟩
  | .hbm, ⟨65, _⟩ => ⟨S40000x128, .f32⟩
  | .hbm, ⟨66, _⟩ => ⟨S40000x128, .f32⟩
  | .hbm, ⟨67, _⟩ => ⟨S_, .i32⟩
  | .hbm, ⟨68, _⟩ => ⟨S640000, .i32⟩
  | .hbm, ⟨69, _⟩ => ⟨S640000, .i1⟩
  | .hbm, ⟨70, _⟩ => ⟨S_, .i32⟩
  | .hbm, ⟨71, _⟩ => ⟨S640000, .i32⟩
  | .hbm, ⟨72, _⟩ => ⟨S640000, .i32⟩
  | .hbm, ⟨73, _⟩ => ⟨S640000, .i32⟩
  | .hbm, ⟨74, _⟩ => ⟨S640000x1, .i32⟩
  | .hbm, ⟨75, _⟩ => ⟨S640000x128, .f32⟩
  | .hbm, ⟨76, _⟩ => ⟨S_, .f32⟩
  | .hbm, ⟨77, _⟩ => ⟨S40000x128, .f32⟩
  | .hbm, ⟨78, _⟩ => ⟨S640000x1, .i32⟩
  | .hbm, ⟨79, _⟩ => ⟨S40000x128, .f32⟩
  | .hbm, ⟨80, _⟩ => ⟨S40000x1, .f32⟩
  | .hbm, ⟨81, _⟩ => ⟨S1x128, .f32⟩
  | .hbm, ⟨82, _⟩ => ⟨S40000x128, .f32⟩
  | .hbm, ⟨83, _⟩ => ⟨S_, .i32⟩
  | .hbm, ⟨84, _⟩ => ⟨S640000, .i32⟩
  | .hbm, ⟨85, _⟩ => ⟨S640000, .i1⟩
  | .hbm, ⟨86, _⟩ => ⟨S_, .i32⟩
  | .hbm, ⟨87, _⟩ => ⟨S640000, .i32⟩
  | .hbm, ⟨88, _⟩ => ⟨S640000, .i32⟩
  | .hbm, ⟨89, _⟩ => ⟨S640000, .i32⟩
  | .hbm, ⟨90, _⟩ => ⟨S640000x1, .i32⟩
  | .hbm, ⟨91, _⟩ => ⟨S640000x128, .f32⟩
  | .hbm, ⟨92, _⟩ => ⟨S_, .i32⟩
  | .hbm, ⟨93, _⟩ => ⟨S640000, .i32⟩
  | .hbm, ⟨94, _⟩ => ⟨S640000, .i1⟩
  | .hbm, ⟨95, _⟩ => ⟨S_, .i32⟩
  | .hbm, ⟨96, _⟩ => ⟨S640000, .i32⟩
  | .hbm, ⟨97, _⟩ => ⟨S640000, .i32⟩
  | .hbm, ⟨98, _⟩ => ⟨S640000, .i32⟩
  | .hbm, ⟨99, _⟩ => ⟨S640000x1, .i32⟩
  | .hbm, ⟨100, _⟩ => ⟨S640000x128, .f32⟩
  | .hbm, ⟨101, _⟩ => ⟨S640000, .f32⟩
  | .local _ .vmem, ⟨0, _⟩ => ⟨S4000x2, .f32⟩
  | .local _ .vmem, ⟨1, _⟩ => ⟨S4000x2, .f32⟩
  | .local _ .vmem, ⟨2, _⟩ => ⟨S4000x1, .f32⟩
  | .local _ .vmem, ⟨3, _⟩ => ⟨S4000x1, .f32⟩
  | .local _ .vmem, ⟨4, _⟩ => ⟨S2x128, .f32⟩
  | .local _ .vmem, ⟨5, _⟩ => ⟨S1x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x1, .f32⟩
  | .local _ .vmem, ⟨11, _⟩ => ⟨S4000x1, .f32⟩
  | .local _ .vmem, ⟨12, _⟩ => ⟨S128x128, .f32⟩
  | .local _ .vmem, ⟨13, _⟩ => ⟨S1x128, .f32⟩
  | .local _ .vmem, ⟨14, _⟩ => ⟨S4000x128, .f32⟩
  | .local _ .vmem, ⟨15, _⟩ => ⟨S4000x128, .f32⟩
  | .local _ .vmem, ⟨16, _⟩ => ⟨S5120x128, .f32⟩
  | .local _ .vmem, ⟨17, _⟩ => ⟨S5120x128, .f32⟩
  | .local _ .vmem, ⟨18, _⟩ => ⟨S5120x128, .f32⟩
  | .local _ .vmem, ⟨19, _⟩ => ⟨S5120x128, .f32⟩
  | .local _ .vmem, ⟨20, _⟩ => ⟨S5120, .f32⟩
  | .local _ .vmem, ⟨21, _⟩ => ⟨S5120, .f32⟩
  | _, _ => ⟨S40000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_4 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_5 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_6 : Ref sig .tc := ⟨.hbm, 45, rfl⟩
abbrev main_v26 : Ref sig .tc := ⟨.hbm, 46, rfl⟩
abbrev main_cst_7 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_8 : Ref sig .tc := ⟨.hbm, 51, rfl⟩
abbrev main_call2_v0 : Ref sig .tc := ⟨.hbm, 52, rfl⟩
abbrev main_call2_v1 : Ref sig .tc := ⟨.hbm, 53, rfl⟩
abbrev main_v30 : Ref sig .tc := ⟨.hbm, 54, rfl⟩
abbrev main_cst_9 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_10 : Ref sig .tc := ⟨.hbm, 59, rfl⟩
abbrev main_call3_v0 : Ref sig .tc := ⟨.hbm, 60, rfl⟩
abbrev main_call3_v1 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_c_11 : Ref sig .tc := ⟨.hbm, 67, rfl⟩
abbrev main_v39 : Ref sig .tc := ⟨.hbm, 68, rfl⟩
abbrev main_v40 : Ref sig .tc := ⟨.hbm, 69, rfl⟩
abbrev main_c_12 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_13 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_c_14 : Ref sig .tc := ⟨.hbm, 83, rfl⟩
abbrev main_v52 : Ref sig .tc := ⟨.hbm, 84, rfl⟩
abbrev main_v53 : Ref sig .tc := ⟨.hbm, 85, rfl⟩
abbrev main_c_15 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_c_16 : Ref sig .tc := ⟨.hbm, 92, rfl⟩
abbrev main_v59 : Ref sig .tc := ⟨.hbm, 93, rfl⟩
abbrev main_v60 : Ref sig .tc := ⟨.hbm, 94, rfl⟩
abbrev main_c_17 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  ![arg0.toNat]

abbrev stage2_0 : Fin 2 → Memref sig .tc .vmem S5120x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5120x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5120 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  bcast_S_S640000 : S_.BroadcastsInDim S640000 (![] : Fin 0 → Fin S640000.rank)
  bcast_S_S40000 : S_.BroadcastsInDim S40000 (![] : Fin 0 → Fin S40000.rank)
  bcast_S640000_S640000x1_0 : S640000.BroadcastsInDim S640000x1 (![0] : Fin 1 → Fin S640000x1.rank)
  bcast_S40000_S40000x1_0 : S40000.BroadcastsInDim S40000x1 (![0] : Fin 1 → Fin S40000x1.rank)
  bcast_S40000x1_S40000x2_0_1 : S40000x1.BroadcastsInDim S40000x2 (![0, 1] : Fin 2 → Fin S40000x2.rank)
  bcast_S_S40000x2 : S_.BroadcastsInDim S40000x2 (![] : Fin 0 → Fin S40000x2.rank)
  shapeCasts_S40000_S40000x1 : S40000.ShapeCasts S40000x1
  shapeCasts_S128_S1x128 : S128.ShapeCasts S1x128
  inb_S4000x2_S4000x2_0_0 : ∀ a, (![0, 0] : Fin 2 → Nat) a + S4000x2.size a ≤ S4000x2.size a
  h_S4000x2 : 0 < S4000x2.numel
  shapeCasts_S4000x2_S4000x2 : S4000x2.ShapeCasts S4000x2
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x2 : S4000x1.Broadcasts S4000x2
  bitsLt_bf16_f32 : FTy.bits .bf16 < FTy.bits .f32
  inb_S2x128_S2x128_0_0 : ∀ a, (![0, 0] : Fin 2 → Nat) a + S2x128.size a ≤ S2x128.size a
  h_S2x128 : 0 < S2x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  bcast_S40000x1_S40000x128_0_1 : S40000x1.BroadcastsInDim S40000x128 (![0, 1] : Fin 2 → Fin S40000x128.rank)
  bcast_S_S40000x128 : S_.BroadcastsInDim S40000x128 (![] : Fin 0 → Fin S40000x128.rank)
  shapeCasts_S4000x128_S4000x128 : S4000x128.ShapeCasts S4000x128
  broadcasts_S4000x1_S4000x128 : S4000x1.Broadcasts S4000x128
  inb_S128x128_S128x128_0_0 : ∀ a, (![0, 0] : Fin 2 → Nat) a + S128x128.size a ≤ S128x128.size a
  h_S128x128 : 0 < S128x128.numel
  inb_S5120x128_S5120x128_0_0 : ∀ a, (![0, 0] : Fin 2 → Nat) a + S5120x128.size a ≤ S5120x128.size a
  h_S5120x128 : 0 < S5120x128.numel
  shapeCasts_S5120x128_S5120x128 : S5120x128.ShapeCasts S5120x128
  reduces_S5120x128_S5120 : S5120x128.Reduces [1] S5120
  inb_S5120_S5120_0 : ∀ a, (![0] : Fin 1 → Nat) a + S5120.size a ≤ S5120.size a
  h_S5120 : 0 < S5120.numel
  scatter_S40000_S640000x1_S640000_n_0_0_1_wf : ScatterDims.WF S40000 S640000x1 S640000 [] [0] [0] 1
  gather_S40000x2_S640000x1_S640000x2_1_0_n_n_0_1_12_wf : GatherDims.WF S40000x2 S640000x1 S640000x2 [1] [0] [] [0] [] 1 ![1, 2]
  scatter_S40000x2_S640000x1_S640000x2_1_0_0_1_wf : ScatterDims.WF S40000x2 S640000x1 S640000x2 [1] [0] [0] 1
  dot_S4000x2_S2x128_S4000x128_1_0_0_1_n_n_wf : DotDims.WF S4000x2 S2x128 S4000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x2.size a ≤ S40000x2.size a
  hwx0_0 : ∀ i : grid0.Coords, EltTy.bits .f32 = 32 ∨ (Rect.block (s := S40000x2) S4000x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S40000x1.size a
  hwx0_1 : ∀ i : grid0.Coords, EltTy.bits .f32 = 32 ∨ (Rect.block (s := S40000x1) S4000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x128.size a ≤ S2x128.size a
  hwx0_2 : ∀ i : grid0.Coords, EltTy.bits .f32 = 32 ∨ (Rect.block (s := S2x128) S2x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S40000x128.size a
  hwx0_4 : ∀ i : grid0.Coords, EltTy.bits .f32 = 32 ∨ (Rect.block (s := S40000x128) S4000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S40000x128.size a
  hwx1_0 : ∀ i : grid1.Coords, EltTy.bits .f32 = 32 ∨ (Rect.block (s := S40000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S40000x1.size a
  hwx1_1 : ∀ i : grid1.Coords, EltTy.bits .f32 = 32 ∨ (Rect.block (s := S40000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S40000x128.size a
  hwx1_4 : ∀ i : grid1.Coords, EltTy.bits .f32 = 32 ∨ (Rect.block (s := S40000x128) S4000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5120x128.size a ≤ S640000x128.size a
  hwx2_0 : ∀ i : grid2.Coords, EltTy.bits .f32 = 32 ∨ (Rect.block (s := S640000x128) S5120x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5120x128.size a ≤ S640000x128.size a
  hwx2_1 : ∀ i : grid2.Coords, EltTy.bits .f32 = 32 ∨ (Rect.block (s := S640000x128) S5120x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5120.size a ≤ S640000.size a
  hwx2_2 : ∀ i : grid2.Coords, EltTy.bits .f32 = 32 ∨ (Rect.block (s := S640000) S5120.size (cc2_transform_2 i) (hinb2_2 i)).WholeWords (EltTy.packing .f32)

variable [Facts₀]

def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def gather_S40000x2_S640000x1_S640000x2_1_0_n_n_0_1_12 : GatherDims S40000x2 S640000x1 S640000x2 where
  offsetDims := [1]
  collapsedSliceDims := [0]
  operandBatchingDims := []
  startIndicesBatchingDims := []
  startIndexMap := [0]
  indexVectorDim := 1
  sliceSizes := ![1, 2]
  wf := gather_S40000x2_S640000x1_S640000x2_1_0_n_n_0_1_12_wf
def scatter_S40000x2_S640000x1_S640000x2_1_0_0_1 : ScatterDims S40000x2 S640000x1 S640000x2 where
  updateWindowDims := [1]
  insertedWindowDims := [0]
  scatterDimsToOperandDims := [0]
  indexVectorDim := 1
  wf := scatter_S40000x2_S640000x1_S640000x2_1_0_0_1_wf
def dot_S4000x2_S2x128_S4000x128_1_0_0_1_n_n : DotDims S4000x2 S2x128 S4000x128 where
  lhsContracting := [1]
  rhsContracting := [0]
  lhsNonContracting := [0]
  rhsNonContracting := [1]
  lhsBatch := []
  rhsBatch := []
  wf := dot_S4000x2_S2x128_S4000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v22) S4000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S2x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S4000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v48) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S4000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v58) S5120x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v65) S5120x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v66) S5120.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S40000x2 : Shape := ⟨2, ![40000, 2]⟩
abbrev S640000 : Shape := ⟨1, ![640000]⟩
abbrev S2x128 : Shape := ⟨2, ![2, 128]⟩
abbrev S128 : Shape := ⟨1, ![128]⟩
abbrev S128x128 : Shape := ⟨2, ![128, 128]⟩
abbrev S_ : Shape := ⟨0, ![]⟩
abbrev S40000 : Shape := ⟨1, ![40000]⟩
abbrev S640000x1 : Shape := ⟨2, ![640000, 1]⟩
abbrev S40000x1 : Shape := ⟨2, ![40000, 1]⟩
abbrev S640000x2 : Shape := ⟨2, ![640000, 2]⟩
abbrev S40000x128 : Shape := ⟨2, ![40000, 128]⟩
abbrev S1x128 : Shape := ⟨2, ![1, 128]⟩
abbrev S640000x128 : Shape := ⟨2, ![640000, 128]⟩

abbrev nBuf : Space → Nat
  | .hbm => 130
  | .vmem => 0
  | .smem => 0
  | _ => 0

abbrev hbmTy0_0 (i : Nat) : BufTy := match i % 128 with
  | 0 => ⟨S40000x2, .f32⟩
  | 1 => ⟨S640000, .i32⟩
  | 2 => ⟨S640000, .i32⟩
  | 3 => ⟨S2x128, .f32⟩
  | 4 => ⟨S128, .f32⟩
  | 5 => ⟨S128x128, .f32⟩
  | 6 => ⟨S128, .f32⟩
  | 7 => ⟨S_, .f32⟩
  | 8 => ⟨S640000, .f32⟩
  | 9 => ⟨S_, .f32⟩
  | 10 => ⟨S40000, .f32⟩
  | 11 => ⟨S640000x1, .i32⟩
  | 12 => ⟨S40000, .f32⟩
  | 13 => ⟨S_, .f32⟩
  | 14 => ⟨S_, .f32⟩
  | 15 => ⟨S40000, .f32⟩
  | 16 => ⟨S40000, .f32⟩
  | 17 => ⟨S_, .f32⟩
  | 18 => ⟨S40000, .f32⟩
  | 19 => ⟨S640000x1, .i32⟩
  | 20 => ⟨S40000, .f32⟩
  | 21 => ⟨S_, .f32⟩
  | 22 => ⟨S_, .f32⟩
  | 23 => ⟨S40000, .f32⟩
  | 24 => ⟨S40000, .f32⟩
  | 25 => ⟨S40000, .f32⟩
  | 26 => ⟨S40000x1, .f32⟩
  | 27 => ⟨S40000x2, .f32⟩
  | 28 => ⟨S40000x2, .f32⟩
  | 29 => ⟨S_, .i32⟩
  | 30 => ⟨S640000, .i32⟩
  | 31 => ⟨S640000, .i1⟩
  | 32 => ⟨S_, .i32⟩
  | 33 => ⟨S640000, .i32⟩
  | 34 => ⟨S640000, .i32⟩
  | 35 => ⟨S640000, .i32⟩
  | 36 => ⟨S640000x1, .i32⟩
  | 37 => ⟨S640000x2, .f32⟩
  | 38 => ⟨S_, .f32⟩
  | 39 => ⟨S40000x2, .f32⟩
  | 40 => ⟨S640000x1, .i32⟩
  | 41 => ⟨S40000x2, .f32⟩
  | 42 => ⟨S40000, .f32⟩
  | 43 => ⟨S40000x1, .f32⟩
  | 44 => ⟨S40000x2, .f32⟩
  | 45 => ⟨S40000x2, .f32⟩
  | 46 => ⟨S40000x128, .f32⟩
  | 47 => ⟨S1x128, .f32⟩
  | 48 => ⟨S40000x128, .f32⟩
  | 49 => ⟨S40000x128, .f32⟩
  | 50 => ⟨S_, .f32⟩
  | 51 => ⟨S640000, .f32⟩
  | 52 => ⟨S_, .f32⟩
  | 53 => ⟨S40000, .f32⟩
  | 54 => ⟨S640000x1, .i32⟩
  | 55 => ⟨S40000, .f32⟩
  | 56 => ⟨S_, .f32⟩
  | 57 => ⟨S_, .f32⟩
  | 58 => ⟨S40000, .f32⟩
  | 59 => ⟨S40000, .f32⟩
  | 60 => ⟨S_, .f32⟩
  | 61 => ⟨S40000, .f32⟩
  | 62 => ⟨S640000x1, .i32⟩
  | 63 => ⟨S40000, .f32⟩
  | 64 => ⟨S_, .f32⟩
  | 65 => ⟨S_, .f32⟩
  | 66 => ⟨S40000, .f32⟩
  | 67 => ⟨S40000, .f32⟩
  | 68 => ⟨S40000, .f32⟩
  | 69 => ⟨S40000x1, .f32⟩
  | 70 => ⟨S40000x128, .f32⟩
  | 71 => ⟨S40000x128, .f32⟩
  | 72 => ⟨S_, .i32⟩
  | 73 => ⟨S640000, .i32⟩
  | 74 => ⟨S640000, .i1⟩
  | 75 => ⟨S_, .i32⟩
  | 76 => ⟨S640000, .i32⟩
  | 77 => ⟨S640000, .i32⟩
  | 78 => ⟨S640000, .i32⟩
  | 79 => ⟨S640000x1, .i32⟩
  | 80 => ⟨S640000x128, .f32⟩
  | 81 => ⟨S_, .f32⟩
  | 82 => ⟨S40000x128, .f32⟩
  | 83 => ⟨S640000x1, .i32⟩
  | 84 => ⟨S40000x128, .f32⟩
  | 85 => ⟨S40000, .f32⟩
  | 86 => ⟨S40000x1, .f32⟩
  | 87 => ⟨S40000x128, .f32⟩
  | 88 => ⟨S40000x128, .f32⟩
  | 89 => ⟨S40000x128, .f32⟩
  | 90 => ⟨S1x128, .f32⟩
  | 91 => ⟨S40000x128, .f32⟩
  | 92 => ⟨S40000x128, .f32⟩
  | 93 => ⟨S_, .i32⟩
  | 94 => ⟨S640000, .i32⟩
  | 95 => ⟨S640000, .i1⟩
  | 96 => ⟨S_, .i32⟩
  | 97 => ⟨S640000, .i32⟩
  | 98 => ⟨S640000, .i32⟩
  | 99 => ⟨S640000, .i32⟩
  | 100 => ⟨S640000x1, .i32⟩
  | 101 => ⟨S640000x128, .f32⟩
  | 102 => ⟨S_, .i32⟩
  | 103 => ⟨S640000, .i32⟩
  | 104 => ⟨S640000, .i1⟩
  | 105 => ⟨S_, .i32⟩
  | 106 => ⟨S640000, .i32⟩
  | 107 => ⟨S640000, .i32⟩
  | 108 => ⟨S640000, .i32⟩
  | 109 => ⟨S640000x1, .i32⟩
  | 110 => ⟨S640000x128, .f32⟩
  | 111 => ⟨S640000x128, .f32⟩
  | 112 => ⟨S_, .f32⟩
  | 113 => ⟨S640000, .f32⟩
  | 114 => ⟨S640000x128, .f32⟩
  | 115 => ⟨S_, .f32⟩
  | 116 => ⟨S640000, .f32⟩
  | 117 => ⟨S640000, .f32⟩
  | 118 => ⟨S_, .f32⟩
  | 119 => ⟨S640000, .f32⟩
  | 120 => ⟨S640000, .f32⟩
  | 121 => ⟨S640000x128, .f32⟩
  | 122 => ⟨S_, .f32⟩
  | 123 => ⟨S640000, .f32⟩
  | 124 => ⟨S640000, .f32⟩
  | 125 => ⟨S_, .f32⟩
  | 126 => ⟨S640000, .f32⟩
  | 127 => ⟨S640000, .f32⟩
  | _ => ⟨S40000x2, .f32⟩

abbrev hbmTy0_1 (i : Nat) : BufTy := match i % 128 with
  | 0 => ⟨S640000, .f32⟩
  | 1 => ⟨S640000, .f32⟩
  | _ => ⟨S40000x2, .f32⟩

abbrev hbmTy (i : Nat) : BufTy := match i / 128 with
  | 0 => hbmTy0_0 i
  | 1 => hbmTy0_1 i
  | _ => ⟨S40000x2, .f32⟩

abbrev bufTy : (tb : Table) → Fin (tcTables nBuf tb) → BufTy
  | .hbm, ⟨i, _⟩ => hbmTy i
  | _, _ => ⟨S40000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_4 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_5 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_cst_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_8 : Ref sig .tc := ⟨.hbm, 56, rfl⟩
abbrev main_call2_v0 : Ref sig .tc := ⟨.hbm, 57, rfl⟩
abbrev main_call2_v1 : Ref sig .tc := ⟨.hbm, 58, rfl⟩
abbrev main_v35 : Ref sig .tc := ⟨.hbm, 59, rfl⟩
abbrev main_cst_9 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_10 : Ref sig .tc := ⟨.hbm, 64, rfl⟩
abbrev main_call3_v0 : Ref sig .tc := ⟨.hbm, 65, rfl⟩
abbrev main_call3_v1 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_c_11 : Ref sig .tc := ⟨.hbm, 72, rfl⟩
abbrev main_v44 : Ref sig .tc := ⟨.hbm, 73, rfl⟩
abbrev main_v45 : Ref sig .tc := ⟨.hbm, 74, rfl⟩
abbrev main_c_12 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_13 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_c_14 : Ref sig .tc := ⟨.hbm, 93, rfl⟩
abbrev main_v62 : Ref sig .tc := ⟨.hbm, 94, rfl⟩
abbrev main_v63 : Ref sig .tc := ⟨.hbm, 95, rfl⟩
abbrev main_c_15 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_c_16 : Ref sig .tc := ⟨.hbm, 102, rfl⟩
abbrev main_v69 : Ref sig .tc := ⟨.hbm, 103, rfl⟩
abbrev main_v70 : Ref sig .tc := ⟨.hbm, 104, rfl⟩
abbrev main_c_17 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_18 : Ref sig .tc := ⟨.hbm, 112, rfl⟩
abbrev main_v77 : Ref sig .tc := ⟨.hbm, 113, rfl⟩
abbrev main_call4_v0 : Ref sig .tc := ⟨.hbm, 114, rfl⟩
abbrev main_call4_cst : Ref sig .tc := ⟨.hbm, 115, rfl⟩
abbrev main_call4_v1 : Ref sig .tc := ⟨.hbm, 116, rfl⟩
abbrev main_v78 : Ref sig .tc := ⟨.hbm, 117, rfl⟩
abbrev main_cst_19 : Ref sig .tc := ⟨.hbm, 118, rfl⟩
abbrev main_v79 : Ref sig .tc := ⟨.hbm, 119, rfl⟩
abbrev main_v80 : Ref sig .tc := ⟨.hbm, 120, rfl⟩
abbrev main_call5_v0 : Ref sig .tc := ⟨.hbm, 121, rfl⟩
abbrev main_call5_cst : Ref sig .tc := ⟨.hbm, 122, rfl⟩
abbrev main_call5_v1 : Ref sig .tc := ⟨.hbm, 123, rfl⟩
abbrev main_v81 : Ref sig .tc := ⟨.hbm, 124, rfl⟩
abbrev main_cst_20 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S_S40000 : S_.BroadcastsInDim S40000 (![] : Fin 0 → Fin S40000.rank)
  bcast_S640000_S640000x1_0 : S640000.BroadcastsInDim S640000x1 (![0] : Fin 1 → Fin S640000x1.rank)
  bcast_S40000_S40000x1_0 : S40000.BroadcastsInDim S40000x1 (![0] : Fin 1 → Fin S40000x1.rank)
  bcast_S40000x1_S40000x2_0_1 : S40000x1.BroadcastsInDim S40000x2 (![0, 1] : Fin 2 → Fin S40000x2.rank)
  bcast_S_S40000x2 : S_.BroadcastsInDim S40000x2 (![] : Fin 0 → Fin S40000x2.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  bcast_S40000x1_S40000x128_0_1 : S40000x1.BroadcastsInDim S40000x128 (![0, 1] : Fin 2 → Fin S40000x128.rank)
  bcast_S_S40000x128 : S_.BroadcastsInDim S40000x128 (![] : Fin 0 → Fin S40000x128.rank)
  reducesTo_S640000x128_S640000_d1 : S640000x128.ReducesTo [1] S640000
  h_S_ : 0 < S_.numel
  scatter_S40000_S640000x1_S640000_n_0_0_1_wf : ScatterDims.WF S40000 S640000x1 S640000 [] [0] [0] 1
  gather_S40000x2_S640000x1_S640000x2_1_0_n_n_0_1_12_wf : GatherDims.WF S40000x2 S640000x1 S640000x2 [1] [0] [] [0] [] 1 ![1, 2]
  scatter_S40000x2_S640000x1_S640000x2_1_0_0_1_wf : ScatterDims.WF S40000x2 S640000x1 S640000x2 [1] [0] [0] 1
  dot_S40000x2_S2x128_S40000x128_1_0_0_1_n_n_wf : DotDims.WF S40000x2 S2x128 S40000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S40000x128_S128x128_S40000x128_1_0_0_1_n_n_wf : DotDims.WF S40000x128 S128x128 S40000x128 [1] [0] [0] [1] [] []

variable [Facts₀]

def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def gather_S40000x2_S640000x1_S640000x2_1_0_n_n_0_1_12 : GatherDims S40000x2 S640000x1 S640000x2 where
  offsetDims := [1]
  collapsedSliceDims := [0]
  operandBatchingDims := []
  startIndicesBatchingDims := []
  startIndexMap := [0]
  indexVectorDim := 1
  sliceSizes := ![1, 2]
  wf := gather_S40000x2_S640000x1_S640000x2_1_0_n_n_0_1_12_wf
def scatter_S40000x2_S640000x1_S640000x2_1_0_0_1 : ScatterDims S40000x2 S640000x1 S640000x2 where
  updateWindowDims := [1]
  insertedWindowDims := [0]
  scatterDimsToOperandDims := [0]
  indexVectorDim := 1
  wf := scatter_S40000x2_S640000x1_S640000x2_1_0_0_1_wf
def dot_S40000x2_S2x128_S40000x128_1_0_0_1_n_n : DotDims S40000x2 S2x128 S40000x128 where
  lhsContracting := [1]
  rhsContracting := [0]
  lhsNonContracting := [0]
  rhsNonContracting := [1]
  lhsBatch := []
  rhsBatch := []
  wf := dot_S40000x2_S2x128_S40000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf

class Facts : Prop extends Facts₀ where

variable [Facts]
-- ==== Proof.GraphSpec.lean ====
/-
  What the three kernel launches compute, as whole-array functions over the extended reals.

  A degree-normalised dense layer: entry (p, q) of the result is the bias at q plus the sum over k of
  agg[p, k] · deg[p]^(-1/2) · w[k, q] — each aggregated row is scaled by the inverse square root of the
  row's in-degree BEFORE it is contracted against the weights, and nothing is distributed over the sum, so
  the kernel's matrix product into a zero accumulator and the host's dot_general are the same sum term by term.

  The edge cosine: entry e is ⟨s_e, d_e⟩ / (max(‖s_e‖, ε) · max(‖d_e‖, ε)) with ‖x‖ = sqrt(Σ x_k²) and ε the
  f32 word of 1e-8 read as its exact binary value (both programs carry the same word).
-/
import Idealize.ShloMosaic.PureOps.Ideal
import Idealize.ShloMosaic.Lib.ValueIdx

noncomputable section

namespace Cert.GraphSpec

open Idealize.ShloMosaic Idealize.ShloMosaic.ValueIdx

/-- Entry (p, q) of a degree-normalised dense layer with K input features: the in-degree column `deg` is
    40000 × 1 and the bias row `b` is 1 × 128, as the launch receives them. -/
def denseAt {K : Nat} (agg : (⟨2, ![40000, K]⟩ : Shape).Idx → EReal) (deg : (⟨2, ![40000, 1]⟩ : Shape).Idx → EReal)
    (w : (⟨2, ![K, 128]⟩ : Shape).Idx → EReal) (b : (⟨2, ![1, 128]⟩ : Shape).Idx → EReal)
    (p : Fin 40000) (q : Fin 128) : EReal :=
  (∑ k : Fin K, agg (ix2 p k) * Ideal.rsqrt (deg (ix2 p (0 : Fin 1))) * w (ix2 k q)) + b (ix2 (0 : Fin 1) q)

/-- The layer's whole 40000 × 128 result. -/
def dense {K : Nat} (agg : (⟨2, ![40000, K]⟩ : Shape).Idx → EReal) (deg : (⟨2, ![40000, 1]⟩ : Shape).Idx → EReal)
    (w : (⟨2, ![K, 128]⟩ : Shape).Idx → EReal) (b : (⟨2, ![1, 128]⟩ : Shape).Idx → EReal) :
    (⟨2, ![40000, 128]⟩ : Shape).Idx → EReal :=
  fun i => denseAt agg deg w b ⟨(i 0).val, (i 0).isLt⟩ ⟨(i 1).val, (i 1).isLt⟩

/-- A length-40000 vector laid out as the 40000 × 1 column the dense launches read the in-degrees from. -/
def colOf (g : (⟨1, ![40000]⟩ : Shape).Idx → EReal) : (⟨2, ![40000, 1]⟩ : Shape).Idx → EReal :=
  fun i => g (ix1 ⟨(i 0).val, (i 0).isLt⟩)

/-- A length-128 vector laid out as the 1 × 128 row the dense launches read the bias from. -/
def rowOf (b : (⟨1, ![128]⟩ : Shape).Idx → EReal) : (⟨2, ![1, 128]⟩ : Shape).Idx → EReal :=
  fun i => b (ix1 ⟨(i 1).val, (i 1).isLt⟩)

/-- The f32 word of 1e-8, at its exact binary value. -/
abbrev eps : EReal := Ideal.ofBits .f32 0x322BCC77#32

/-- The cosine of edge `e`'s two gathered feature rows, each norm clamped below by `eps`. -/
def cosAt (s d : (⟨2, ![640000, 128]⟩ : Shape).Idx → EReal) (e : Fin 640000) : EReal :=
  Ideal.div (∑ k : Fin 128, s (ix2 e k) * d (ix2 e k))
    (max (Ideal.sqrt (∑ k : Fin 128, s (ix2 e k) * s (ix2 e k))) eps
      * max (Ideal.sqrt (∑ k : Fin 128, d (ix2 e k) * d (ix2 e k))) eps)

/-- All 640000 edge cosines. -/
def cosine (s d : (⟨2, ![640000, 128]⟩ : Shape).Idx → EReal) : (⟨1, ![640000]⟩ : Shape).Idx → EReal :=
  fun i => cosAt s d ⟨(i 0).val, (i 0).isLt⟩

end Cert.GraphSpec

end
-- ==== Proof.DenseFirstValue.lean ====
/- The first dense launch (2 input features): the 40000 × 128 array it leaves. -/
import proofs.«121487_j43851616092221_1_alg».proof.Proof.Gen.KernelIdeal.Frame
import proofs.«121487_j43851616092221_1_alg».proof.Proof.GraphSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.SL.Sem Idealize.ShloMosaic.ValueIdx
open Cert.KernelIdeal Cert.KernelIdeal.Gen

-- the buffer contents the launch is entered with: every statement below holds for any such contents
variable (V : (c : Dev nD) → (b : Ref sig .tc) → Buf (Elt Ideal) ((c : Thread nD τ).loc b))

/-! ## One output entry of the block computation

Entry (p, q) of a 4000 × 128 output block is the bias at q plus the sum over the two input features k of
x0[p, k] · x1[p, 0]^(-1/2) · x2[k, q]: the matrix product into a zero accumulator is the plain sum over its
contraction index, a change of float format is the identity, and the two broadcasts read the degree column at
row p and the bias row at column q. -/

/-- A column [a, 1] broadcast to [a, b] reads, at (p, c), the column's entry at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The left operand of the product is read at the output's row … -/
theorem lhs_dense2_0 (i : S4000x128.Idx) (r : dot_S4000x2_S2x128_S4000x128_1_0_0_1_n_n.contr.Idx) :
    (dot_S4000x2_S2x128_S4000x128_1_0_0_1_n_n.lhsIdx i r 0).val = (i 0).val := by
  unfold DotDims.lhsIdx
  rw [dif_neg (show ¬(0 : Fin S4000x2.rank) ∈ dot_S4000x2_S2x128_S4000x128_1_0_0_1_n_n.lhsBatch by decide), dif_pos (show (0 : Fin S4000x2.rank) ∈ dot_S4000x2_S2x128_S4000x128_1_0_0_1_n_n.lhsNonContracting by decide)]
  rfl
/-- … and at the contracted feature; -/
theorem lhs_dense2_1 (i : S4000x128.Idx) (r : dot_S4000x2_S2x128_S4000x128_1_0_0_1_n_n.contr.Idx) :
    (dot_S4000x2_S2x128_S4000x128_1_0_0_1_n_n.lhsIdx i r 1).val = (r ⟨0, by decide⟩).val :=
  dot_S4000x2_S2x128_S4000x128_1_0_0_1_n_n.lhsIdx_val_of_single rfl i r
/-- the right operand at the contracted feature … -/
theorem rhs_dense2_0 (i : S4000x128.Idx) (r : dot_S4000x2_S2x128_S4000x128_1_0_0_1_n_n.contr.Idx) :
    (dot_S4000x2_S2x128_S4000x128_1_0_0_1_n_n.rhsIdx i r 0).val = (r ⟨0, by decide⟩).val :=
  dot_S4000x2_S2x128_S4000x128_1_0_0_1_n_n.rhsIdx_val_of_single rfl i r
/-- … and at the output's column. -/
theorem rhs_dense2_1 (i : S4000x128.Idx) (r : dot_S4000x2_S2x128_S4000x128_1_0_0_1_n_n.contr.Idx) :
    (dot_S4000x2_S2x128_S4000x128_1_0_0_1_n_n.rhsIdx i r 1).val = (i 1).val := by
  unfold DotDims.rhsIdx
  rw [dif_neg (show ¬(1 : Fin S2x128.rank) ∈ dot_S4000x2_S2x128_S4000x128_1_0_0_1_n_n.rhsBatch by decide), dif_pos (show (1 : Fin S2x128.rank) ∈ dot_S4000x2_S2x128_S4000x128_1_0_0_1_n_n.rhsNonContracting by decide)]
  rfl

/-- The matrix product into the zero accumulator, at (p, q): the sum over the two features of the operands' products. -/
theorem matmul_dense2_apply (l : FVec Ideal S4000x2 .bf16) (w : FVec Ideal S2x128 .bf16) (p : Fin 4000) (q : Fin 128) :
    matmul (F := Ideal) dot_S4000x2_S2x128_S4000x128_1_0_0_1_n_n none l w (constant (F := Ideal) S4000x128 .f32 0x00000000#32) (ix2 p q)
      = ∑ k : Fin 2, l (ix2 p k) * w (ix2 k q) := by
  simp only [matmul]
  rw [Ideal.matmul_constant_zero_apply, ← Equiv.sum_comp (ValueIdx.contrEquiv1 dot_S4000x2_S2x128_S4000x128_1_0_0_1_n_n 2 rfl rfl).symm]
  refine Finset.sum_congr rfl fun k _ => ?_
  have hk := ValueIdx.contrEquiv1_symm_val dot_S4000x2_S2x128_S4000x128_1_0_0_1_n_n 2 rfl rfl k
  have el : dot_S4000x2_S2x128_S4000x128_1_0_0_1_n_n.lhsIdx (ix2 p q) ((ValueIdx.contrEquiv1 dot_S4000x2_S2x128_S4000x128_1_0_0_1_n_n 2 rfl rfl).symm k) = ix2 p k := funext fun a => Fin.ext (by
    match a with
    | ⟨0, _⟩ => exact lhs_dense2_0 _ _
    | ⟨1, _⟩ => exact (lhs_dense2_1 _ _).trans hk)
  have er : dot_S4000x2_S2x128_S4000x128_1_0_0_1_n_n.rhsIdx (ix2 p q) ((ValueIdx.contrEquiv1 dot_S4000x2_S2x128_S4000x128_1_0_0_1_n_n 2 rfl rfl).symm k) = ix2 k q := funext fun a => Fin.ext (by
    match a with
    | ⟨0, _⟩ => exact (rhs_dense2_0 _ _).trans hk
    | ⟨1, _⟩ => exact rhs_dense2_1 _ _)
  rw [el, er]

/-- The block computation at (p, q). -/
theorem dense2_block_apply (x0 : Vec Ideal S4000x2 .f32) (x1 : Vec Ideal S4000x1 .f32) (x2 : Vec Ideal S2x128 .f32)
    (x3 : Vec Ideal S1x128 .f32) (p : Fin 4000) (q : Fin 128) :
    k0_pay1 (F := Ideal) x0 x1 x2 x3 (ix2 p q)
      = (∑ k : Fin 2, x0 (ix2 p k) * Ideal.rsqrt (x1 (ix2 p (0 : Fin 1))) * x2 (ix2 k q)) + x3 (ix2 (0 : Fin 1) q) := by
  unfold k0_pay1
  refine (addf_apply _ _ (ix2 p q)).trans ?_
  refine congrArg₂ (· + ·) ?_ ?_
  · refine (matmul_dense2_apply _ _ p q).trans ?_
    refine Finset.sum_congr rfl fun k _ => ?_
    refine congrArg₂ (· * ·) ?_ rfl
    refine (truncf_apply (φ := .f32) (ψ := .bf16) _ bitsLt_bf16_f32 (ix2 p k)).trans ?_
    refine (mulf_apply _ _ (ix2 p k)).trans ?_
    refine congrArg₂ (· * ·) ?_ ?_
    · rw [shapeCast_self]
    · refine (broadcastTo_a1_ab_apply _ _ p k).trans ?_
      rw [shapeCast_self]
      rfl
  · refine (broadcastTo_1b_ab_apply _ _ p q).trans ?_
    rw [shapeCast_self]

/-! ## What one grid point writes back

Point t computes rows 4000·t … 4000·t + 3999 of the layer: its aggregate and degree blocks are those rows of their
arrays, the weights and the bias are whole, and the output block is written back to the same rows. -/

theorem zero_offsets : (![0, 0] : Fin 2 → Nat) = fun _ => 0 := funext fun a => by fin_cases a <;> rfl

/-- Block entry (p, q), with the input blocks read off the arrays at row r, is entry (r, q) of the dense layer. -/
theorem dense2_block_entry (agg : S40000x2.Idx → EReal) (deg : S40000x1.Idx → EReal) (w : S2x128.Idx → EReal)
    (b : S1x128.Idx → EReal) (x0 : Vec Ideal S4000x2 .f32) (x1 : Vec Ideal S4000x1 .f32) (x2 : Vec Ideal S2x128 .f32)
    (x3 : Vec Ideal S1x128 .f32) (r : Fin 40000) (p : Fin 4000) (q : Fin 128)
    (h0 : ∀ k : Fin 2, x0 (ix2 p k) = agg (ix2 r k))
    (h1 : x1 (ix2 p (0 : Fin 1)) = deg (ix2 r (0 : Fin 1)))
    (h2 : ∀ k : Fin 2, x2 (ix2 k q) = w (ix2 k q))
    (h3 : x3 (ix2 (0 : Fin 1) q) = b (ix2 (0 : Fin 1) q)) :
    k0_pay1 (F := Ideal) x0 x1 x2 x3 (ix2 p q) = Cert.GraphSpec.denseAt (K := 2) agg deg w b r q := by
  rw [dense2_block_apply]
  unfold Cert.GraphSpec.denseAt
  rw [h1, h3]
  refine congrArg₂ (· + ·) (Finset.sum_congr rfl fun k _ => ?_) rfl
  rw [h0 k, h2 k]

/-- The same against the whole layer at an array index i whose row is r and whose column is q. -/
theorem dense2_block_at (agg : S40000x2.Idx → EReal) (deg : S40000x1.Idx → EReal) (w : S2x128.Idx → EReal)
    (b : S1x128.Idx → EReal) (x0 : Vec Ideal S4000x2 .f32) (x1 : Vec Ideal S4000x1 .f32) (x2 : Vec Ideal S2x128 .f32)
    (x3 : Vec Ideal S1x128 .f32) (i : S40000x128.Idx) (r : Fin 40000) (p : Fin 4000) (q : Fin 128)
    (hr : (i 0).val = r.val) (hq : (i 1).val = q.val)
    (h0 : ∀ k : Fin 2, x0 (ix2 p k) = agg (ix2 r k))
    (h1 : x1 (ix2 p (0 : Fin 1)) = deg (ix2 r (0 : Fin 1)))
    (h2 : ∀ k : Fin 2, x2 (ix2 k q) = w (ix2 k q))
    (h3 : x3 (ix2 (0 : Fin 1) q) = b (ix2 (0 : Fin 1) q)) :
    k0_pay1 (F := Ideal) x0 x1 x2 x3 (ix2 p q) = Cert.GraphSpec.dense (K := 2) agg deg w b i := by
  show _ = Cert.GraphSpec.denseAt (K := 2) agg deg w b ⟨(i 0).val, (i 0).isLt⟩ ⟨(i 1).val, (i 1).isLt⟩
  rw [show (⟨(i 0).val, (i 0).isLt⟩ : Fin 40000) = r from Fin.ext hr,
    show (⟨(i 1).val, (i 1).isLt⟩ : Fin 128) = q from Fin.ext hq]
  exact dense2_block_entry agg deg w b x0 x1 x2 x3 r p q h0 h1 h2 h3

/-- The launch's block-index maps over the ten grid points: the two row-blocked inputs move with the output, whose
    block index is the point's number; the weights and the bias stay at block (0, 0). -/
theorem block_indices : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) ≤ 9 ∧ win0_4.index t (1 : Fin 2) = 0 :=
  (by decide +kernel : ∀ t : Fin grid0.N, _)

/-- Every row block of the output is some point's. -/
theorem block_onto : ∀ b : Fin 10, ∃ t : Fin cfg0.N, win0_4.index t = ![b.val, 0] :=
  (by decide +kernel : ∀ b : Fin 10, ∃ t : Fin grid0.N, win0_4.index t = ![b.val, 0])

set_option maxHeartbeats 400000 in
/-- What point t writes back is block t of the dense layer of the arrays as the launch finds them. -/
theorem flushed_dense2 (c : Dev nD) (t : Fin cfg0.N) :
    (dat0 (F := Ideal) V c).flushed 4 t
      = ((cfg0.win 4).blk t).view.read (Elt Ideal)
          (Cert.GraphSpec.dense (K := 2) (V c main_v22) (V c main_v23) (V c main_arg3) (V c main_v24)) := by
  show (cfg0.win 4).cut (grid0.coords t) ((dat0 V c).after 4 t) = _
  rw [after0_4]
  unfold out0_4
  rw [View.canon_unit_zero zero_offsets]
  simp only [View.ld_unit_zero (S := S4000x2) zero_offsets, View.ld_unit_zero (S := S4000x1) zero_offsets,
    View.ld_unit_zero (S := S2x128) zero_offsets, View.ld_unit_zero (S := S1x128) zero_offsets]
  obtain ⟨e00, e01, e10, e11, e20, e21, e30, e31, e40, e41⟩ := block_indices t
  funext j
  obtain ⟨p, q, rfl⟩ : ∃ (p : Fin 4000) (q : Fin 128), j = ix2 p q := ⟨j 0, j 1, eq_ix2 j⟩
  have hp : p.val < 4000 := p.isLt
  have hq : q.val < 128 := q.isLt
  show k0_pay1 (F := Ideal) (iblk0 V c 0 t) (iblk0 V c 1 t) (iblk0 V c 2 t) (iblk0 V c 3 t) (ix2 p q)
    = Cert.GraphSpec.dense (K := 2) (V c main_v22) (V c main_v23) (V c main_arg3) (V c main_v24)
        (((cfg0.win 4).blk t).view.emb (ix2 p q))
  refine dense2_block_at (V c main_v22) (V c main_v23) (V c main_arg3) (V c main_v24)
    (iblk0 V c 0 t) (iblk0 V c 1 t) (iblk0 V c 2 t) (iblk0 V c 3 t) (((cfg0.win 4).blk t).view.emb (ix2 p q))
    ⟨win0_4.index t (0 : Fin 2) * 4000 + p.val, by omega⟩ p q ?_ ?_ (fun k => ?_) ?_ (fun k => ?_) ?_
  · show win0_4.index t (0 : Fin 2) * 4000 + 1 * p.val = win0_4.index t (0 : Fin 2) * 4000 + p.val
    omega
  · show win0_4.index t (1 : Fin 2) * 128 + 1 * q.val = q.val
    omega
  · show V c main_v22 (((cfg0.win 0).blk t).view.emb (ix2 p k)) = _
    refine congrArg (V c main_v22) (funext fun a => Fin.ext ?_)
    match a with
    | ⟨0, _⟩ => show win0_0.index t (0 : Fin 2) * 4000 + 1 * p.val = win0_4.index t (0 : Fin 2) * 4000 + p.val; omega
    | ⟨1, _⟩ => show win0_0.index t (1 : Fin 2) * 2 + 1 * k.val = k.val; omega
  · show V c main_v23 (((cfg0.win 1).blk t).view.emb (ix2 p (0 : Fin 1))) = _
    refine congrArg (V c main_v23) (funext fun a => Fin.ext ?_)
    match a with
    | ⟨0, _⟩ => show win0_1.index t (0 : Fin 2) * 4000 + 1 * p.val = win0_4.index t (0 : Fin 2) * 4000 + p.val; omega
    | ⟨1, _⟩ => show win0_1.index t (1 : Fin 2) * 1 + 1 * 0 = 0; omega
  · show V c main_arg3 (((cfg0.win 2).blk t).view.emb (ix2 k q)) = _
    refine congrArg (V c main_arg3) (funext fun a => Fin.ext ?_)
    match a with
    | ⟨0, _⟩ => show win0_2.index t (0 : Fin 2) * 2 + 1 * k.val = k.val; omega
    | ⟨1, _⟩ => show win0_2.index t (1 : Fin 2) * 128 + 1 * q.val = q.val; omega
  · show V c main_v24 (((cfg0.win 3).blk t).view.emb (ix2 (0 : Fin 1) q)) = _
    refine congrArg (V c main_v24) (funext fun a => Fin.ext ?_)
    match a with
    | ⟨0, _⟩ => show win0_3.index t (0 : Fin 2) * 1 + 1 * 0 = 0; omega
    | ⟨1, _⟩ => show win0_3.index t (1 : Fin 2) * 128 + 1 * q.val = q.val; omega

/-! ## The ten row blocks tile the array -/

/-- An array index is in point t's block exactly when each coordinate lies in the block's range on its axis. -/
theorem mem_row_block (t : Fin cfg0.N) (i : S40000x128.Idx) :
    i ∈ ((cfg0.win 4).blk t).view.set ↔ ∀ a : Fin 2, win0_4.index t a * S4000x128.size a ≤ (i a).val
      ∧ (i a).val < win0_4.index t a * S4000x128.size a + S4000x128.size a := by
  show i ∈ ((View.whole main_v25).slice (win0_4.rect t)).set ↔ _
  rw [View.set_slice_whole, Rect.mem_set_unit]
  exact Iff.rfl

/-- Row r of the 40000 lies in the block of the point whose block index is r / 4000, and that point writes back. -/
theorem rows_covered (i : S40000x128.Idx) :
    ∃ t : Fin cfg0.N, (cfg0.win 4).flush t = true ∧ i ∈ ((cfg0.win 4).blk t).view.set := by
  have hi0 : (i 0).val < 40000 := (i 0).isLt
  have hi1 : (i 1).val < 128 := (i 1).isLt
  obtain ⟨t, ht⟩ := block_onto ⟨(i 0).val / 4000, by omega⟩
  have b0 : win0_4.index t (0 : Fin 2) = (i 0).val / 4000 := congrFun ht 0
  have b1 : win0_4.index t (1 : Fin 2) = 0 := congrFun ht 1
  refine ⟨t, flush0_4 t, ?_⟩
  rw [mem_row_block]
  intro a
  match a with
  | ⟨0, _⟩ =>
    show win0_4.index t (0 : Fin 2) * 4000 ≤ (i 0).val ∧ (i 0).val < win0_4.index t (0 : Fin 2) * 4000 + 4000
    omega
  | ⟨1, _⟩ =>
    show win0_4.index t (1 : Fin 2) * 128 ≤ (i 1).val ∧ (i 1).val < win0_4.index t (1 : Fin 2) * 128 + 128
    omega

/-! ## The array the launch leaves -/

theorem denseFirst_final (c : Dev nD) :
    (dat0 (F := Ideal) V c).arrAt 4 cfg0.N
      = Cert.GraphSpec.dense (K := 2) (V c main_v22) (V c main_v23) (V c main_arg3) (V c main_v24) :=
  (dat0 (F := Ideal) V c).arrAt_eq_of_cover 4 _ (fun t _ => flushed_dense2 V c t) rows_covered

end Cert.KernelIdeal.RegionValue

end
-- ==== Proof.DenseSecondValue.lean ====
/- The second dense launch (128 input features): the 40000 × 128 array it leaves. -/
import proofs.«121487_j43851616092221_1_alg».proof.Proof.Gen.KernelIdeal.Frame
import proofs.«121487_j43851616092221_1_alg».proof.Proof.GraphSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.SL.Sem Idealize.ShloMosaic.ValueIdx
open Cert.KernelIdeal Cert.KernelIdeal.Gen

-- the buffer contents the launch is entered with: every statement below holds for any such contents
variable (V : (c : Dev nD) → (b : Ref sig .tc) → Buf (Elt Ideal) ((c : Thread nD τ).loc b))

/-! ## One output entry of the block computation

Entry (p, q) of a 4000 × 128 output block is the bias at q plus the sum over the 128 input features k of
x0[p, k] · x1[p, 0]^(-1/2) · x2[k, q]: the matrix product into a zero accumulator is the plain sum over its
contraction index, a change of float format is the identity, and the two broadcasts read the degree column at
row p and the bias row at column q. -/

/-- A degree column [a, 1] spread over b columns reads, at (p, c), the column's entry at row p. -/
theorem degree_column_spread_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The left operand of the product is read at the output's row … -/
theorem lhs_dense128_0 (i : S4000x128.Idx) (r : dot_S4000x128_S128x128_S4000x128_1_0_0_1_n_n.contr.Idx) :
    (dot_S4000x128_S128x128_S4000x128_1_0_0_1_n_n.lhsIdx i r 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- … and at the contracted feature; -/
theorem lhs_dense128_1 (i : S4000x128.Idx) (r : dot_S4000x128_S128x128_S4000x128_1_0_0_1_n_n.contr.Idx) :
    (dot_S4000x128_S128x128_S4000x128_1_0_0_1_n_n.lhsIdx i r 1).val = (r ⟨0, by decide⟩).val :=
  dot_S4000x128_S128x128_S4000x128_1_0_0_1_n_n.lhsIdx_val_of_single rfl i r
/-- the right operand at the contracted feature … -/
theorem rhs_dense128_0 (i : S4000x128.Idx) (r : dot_S4000x128_S128x128_S4000x128_1_0_0_1_n_n.contr.Idx) :
    (dot_S4000x128_S128x128_S4000x128_1_0_0_1_n_n.rhsIdx i r 0).val = (r ⟨0, by decide⟩).val :=
  dot_S4000x128_S128x128_S4000x128_1_0_0_1_n_n.rhsIdx_val_of_single rfl i r
/-- … and at the output's column. -/
theorem rhs_dense128_1 (i : S4000x128.Idx) (r : dot_S4000x128_S128x128_S4000x128_1_0_0_1_n_n.contr.Idx) :
    (dot_S4000x128_S128x128_S4000x128_1_0_0_1_n_n.rhsIdx i r 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The matrix product into the zero accumulator, at (p, q): the sum over the 128 features of the operands' products. -/
theorem matmul_dense128_apply (l : FVec Ideal S4000x128 .bf16) (w : FVec Ideal S128x128 .bf16) (p : Fin 4000) (q : Fin 128) :
    matmul (F := Ideal) dot_S4000x128_S128x128_S4000x128_1_0_0_1_n_n none l w (constant (F := Ideal) S4000x128 .f32 0x00000000#32) (ix2 p q)
      = ∑ k : Fin 128, l (ix2 p k) * w (ix2 k q) := by
  simp only [matmul]
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhs_dense128_0 _ _
    | ⟨1, _⟩ => exact (lhs_dense128_1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhs_dense128_0 _ _).trans hk
    | ⟨1, _⟩ => exact rhs_dense128_1 _ _)
  rw [el, er]

/-- The block computation at (p, q). -/
theorem dense128_block_apply (x0 : Vec Ideal S4000x128 .f32) (x1 : Vec Ideal S4000x1 .f32) (x2 : Vec Ideal S128x128 .f32)
    (x3 : Vec Ideal S1x128 .f32) (p : Fin 4000) (q : Fin 128) :
    k1_pay1 (F := Ideal) x0 x1 x2 x3 (ix2 p q)
      = (∑ k : Fin 128, x0 (ix2 p k) * Ideal.rsqrt (x1 (ix2 p (0 : Fin 1))) * x2 (ix2 k q)) + x3 (ix2 (0 : Fin 1) q) := by
  unfold k1_pay1
  refine (addf_apply _ _ (ix2 p q)).trans ?_
  refine congrArg₂ (· + ·) ?_ ?_
  · refine (matmul_dense128_apply _ _ p q).trans ?_
    refine Finset.sum_congr rfl fun k _ => ?_
    refine congrArg₂ (· * ·) ?_ rfl
    refine (truncf_apply (φ := .f32) (ψ := .bf16) _ bitsLt_bf16_f32 (ix2 p k)).trans ?_
    refine (mulf_apply _ _ (ix2 p k)).trans ?_
    refine congrArg₂ (· * ·) ?_ ?_
    · rw [shapeCast_self]
    · refine (degree_column_spread_apply _ _ p k).trans ?_
      rw [shapeCast_self]
      rfl
  · refine (broadcastTo_1b_ab_apply _ _ p q).trans ?_
    rw [shapeCast_self]

/-! ## What one grid point writes back

Point t computes rows 4000·t … 4000·t + 3999 of the layer: its aggregate and degree blocks are those rows of their
arrays, the weights and the bias are whole, and the output block is written back to the same rows. -/

theorem zero_offsets_128 : (![0, 0] : Fin 2 → Nat) = fun _ => 0 := funext fun a => by fin_cases a <;> rfl

/-- Block entry (p, q), with the input blocks read off the arrays at row r, is entry (r, q) of the dense layer. -/
theorem dense128_block_entry (agg : S40000x128.Idx → EReal) (deg : S40000x1.Idx → EReal) (w : S128x128.Idx → EReal)
    (b : S1x128.Idx → EReal) (x0 : Vec Ideal S4000x128 .f32) (x1 : Vec Ideal S4000x1 .f32) (x2 : Vec Ideal S128x128 .f32)
    (x3 : Vec Ideal S1x128 .f32) (r : Fin 40000) (p : Fin 4000) (q : Fin 128)
    (h0 : ∀ k : Fin 128, x0 (ix2 p k) = agg (ix2 r k))
    (h1 : x1 (ix2 p (0 : Fin 1)) = deg (ix2 r (0 : Fin 1)))
    (h2 : ∀ k : Fin 128, x2 (ix2 k q) = w (ix2 k q))
    (h3 : x3 (ix2 (0 : Fin 1) q) = b (ix2 (0 : Fin 1) q)) :
    k1_pay1 (F := Ideal) x0 x1 x2 x3 (ix2 p q) = Cert.GraphSpec.denseAt (K := 128) agg deg w b r q := by
  rw [dense128_block_apply]
  unfold Cert.GraphSpec.denseAt
  rw [h1, h3]
  refine congrArg₂ (· + ·) (Finset.sum_congr rfl fun k _ => ?_) rfl
  rw [h0 k, h2 k]

/-- The same against the whole layer at an array index i whose row is r and whose column is q. -/
theorem dense128_block_at (agg : S40000x128.Idx → EReal) (deg : S40000x1.Idx → EReal) (w : S128x128.Idx → EReal)
    (b : S1x128.Idx → EReal) (x0 : Vec Ideal S4000x128 .f32) (x1 : Vec Ideal S4000x1 .f32) (x2 : Vec Ideal S128x128 .f32)
    (x3 : Vec Ideal S1x128 .f32) (i : S40000x128.Idx) (r : Fin 40000) (p : Fin 4000) (q : Fin 128)
    (hr : (i 0).val = r.val) (hq : (i 1).val = q.val)
    (h0 : ∀ k : Fin 128, x0 (ix2 p k) = agg (ix2 r k))
    (h1 : x1 (ix2 p (0 : Fin 1)) = deg (ix2 r (0 : Fin 1)))
    (h2 : ∀ k : Fin 128, x2 (ix2 k q) = w (ix2 k q))
    (h3 : x3 (ix2 (0 : Fin 1) q) = b (ix2 (0 : Fin 1) q)) :
    k1_pay1 (F := Ideal) x0 x1 x2 x3 (ix2 p q) = Cert.GraphSpec.dense (K := 128) agg deg w b i := by
  show _ = Cert.GraphSpec.denseAt (K := 128) agg deg w b ⟨(i 0).val, (i 0).isLt⟩ ⟨(i 1).val, (i 1).isLt⟩
  rw [show (⟨(i 0).val, (i 0).isLt⟩ : Fin 40000) = r from Fin.ext hr,
    show (⟨(i 1).val, (i 1).isLt⟩ : Fin 128) = q from Fin.ext hq]
  exact dense128_block_entry agg deg w b x0 x1 x2 x3 r p q h0 h1 h2 h3

/-- The launch's block-index maps over the ten grid points: the two row-blocked inputs move with the output, whose
    block index stays below ten; the weights and the bias stay at block (0, 0). -/
theorem block_indices_128 : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) ≤ 9 ∧ win1_4.index t (1 : Fin 2) = 0 :=
  (by decide +kernel : ∀ t : Fin grid1.N, _)

/-- Every row block of the output is some point's. -/
theorem block_onto_128 : ∀ b : Fin 10, ∃ t : Fin cfg1.N, win1_4.index t = ![b.val, 0] :=
  (by decide +kernel : ∀ b : Fin 10, ∃ t : Fin grid1.N, win1_4.index t = ![b.val, 0])

set_option maxHeartbeats 400000 in
/-- What point t writes back is block t of the dense layer of the arrays as the launch finds them. -/
theorem flushed_dense128 (c : Dev nD) (t : Fin cfg1.N) :
    (dat1 (F := Ideal) V c).flushed 4 t
      = ((cfg1.win 4).blk t).view.read (Elt Ideal)
          (Cert.GraphSpec.dense (K := 128) (V c main_v48) (V c main_v49) (V c main_arg5) (V c main_v50)) := by
  show (cfg1.win 4).cut (grid1.coords t) ((dat1 V c).after 4 t) = _
  rw [after1_4]
  unfold out1_4
  rw [View.canon_unit_zero zero_offsets_128]
  simp only [View.ld_unit_zero (S := S4000x128) zero_offsets_128, View.ld_unit_zero (S := S4000x1) zero_offsets_128,
    View.ld_unit_zero (S := S128x128) zero_offsets_128, View.ld_unit_zero (S := S1x128) zero_offsets_128]
  obtain ⟨e00, e01, e10, e11, e20, e21, e30, e31, e40, e41⟩ := block_indices_128 t
  funext j
  obtain ⟨p, q, rfl⟩ : ∃ (p : Fin 4000) (q : Fin 128), j = ix2 p q := ⟨j 0, j 1, eq_ix2 j⟩
  have hp : p.val < 4000 := p.isLt
  have hq : q.val < 128 := q.isLt
  show k1_pay1 (F := Ideal) (iblk1 V c 0 t) (iblk1 V c 1 t) (iblk1 V c 2 t) (iblk1 V c 3 t) (ix2 p q)
    = Cert.GraphSpec.dense (K := 128) (V c main_v48) (V c main_v49) (V c main_arg5) (V c main_v50)
        (((cfg1.win 4).blk t).view.emb (ix2 p q))
  refine dense128_block_at (V c main_v48) (V c main_v49) (V c main_arg5) (V c main_v50)
    (iblk1 V c 0 t) (iblk1 V c 1 t) (iblk1 V c 2 t) (iblk1 V c 3 t) (((cfg1.win 4).blk t).view.emb (ix2 p q))
    ⟨win1_4.index t (0 : Fin 2) * 4000 + p.val, by omega⟩ p q ?_ ?_ (fun k => ?_) ?_ (fun k => ?_) ?_
  · show win1_4.index t (0 : Fin 2) * 4000 + 1 * p.val = win1_4.index t (0 : Fin 2) * 4000 + p.val
    omega
  · show win1_4.index t (1 : Fin 2) * 128 + 1 * q.val = q.val
    omega
  · show V c main_v48 (((cfg1.win 0).blk t).view.emb (ix2 p k)) = _
    refine congrArg (V c main_v48) (funext fun a => Fin.ext ?_)
    match a with
    | ⟨0, _⟩ => show win1_0.index t (0 : Fin 2) * 4000 + 1 * p.val = win1_4.index t (0 : Fin 2) * 4000 + p.val; omega
    | ⟨1, _⟩ => show win1_0.index t (1 : Fin 2) * 128 + 1 * k.val = k.val; omega
  · show V c main_v49 (((cfg1.win 1).blk t).view.emb (ix2 p (0 : Fin 1))) = _
    refine congrArg (V c main_v49) (funext fun a => Fin.ext ?_)
    match a with
    | ⟨0, _⟩ => show win1_1.index t (0 : Fin 2) * 4000 + 1 * p.val = win1_4.index t (0 : Fin 2) * 4000 + p.val; omega
    | ⟨1, _⟩ => show win1_1.index t (1 : Fin 2) * 1 + 1 * 0 = 0; omega
  · show V c main_arg5 (((cfg1.win 2).blk t).view.emb (ix2 k q)) = _
    refine congrArg (V c main_arg5) (funext fun a => Fin.ext ?_)
    match a with
    | ⟨0, _⟩ => show win1_2.index t (0 : Fin 2) * 128 + 1 * k.val = k.val; omega
    | ⟨1, _⟩ => show win1_2.index t (1 : Fin 2) * 128 + 1 * q.val = q.val; omega
  · show V c main_v50 (((cfg1.win 3).blk t).view.emb (ix2 (0 : Fin 1) q)) = _
    refine congrArg (V c main_v50) (funext fun a => Fin.ext ?_)
    match a with
    | ⟨0, _⟩ => show win1_3.index t (0 : Fin 2) * 1 + 1 * 0 = 0; omega
    | ⟨1, _⟩ => show win1_3.index t (1 : Fin 2) * 128 + 1 * q.val = q.val; omega

/-! ## The ten row blocks tile the array -/

/-- An array index is in point t's block exactly when each coordinate lies in the block's range on its axis. -/
theorem mem_row_block_128 (t : Fin cfg1.N) (i : S40000x128.Idx) :
    i ∈ ((cfg1.win 4).blk t).view.set ↔ ∀ a : Fin 2, win1_4.index t a * S4000x128.size a ≤ (i a).val
      ∧ (i a).val < win1_4.index t a * S4000x128.size a + S4000x128.size a := by
  show i ∈ ((View.whole main_v51).slice (win1_4.rect t)).set ↔ _
  rw [View.set_slice_whole, Rect.mem_set_unit]
  exact Iff.rfl

/-- Row r of the 40000 lies in the block of the point whose block index is r / 4000, and that point writes back. -/
theorem rows_covered_128 (i : S40000x128.Idx) :
    ∃ t : Fin cfg1.N, (cfg1.win 4).flush t = true ∧ i ∈ ((cfg1.win 4).blk t).view.set := by
  have hi0 : (i 0).val < 40000 := (i 0).isLt
  have hi1 : (i 1).val < 128 := (i 1).isLt
  obtain ⟨t, ht⟩ := block_onto_128 ⟨(i 0).val / 4000, by omega⟩
  have b0 : win1_4.index t (0 : Fin 2) = (i 0).val / 4000 := congrFun ht 0
  have b1 : win1_4.index t (1 : Fin 2) = 0 := congrFun ht 1
  refine ⟨t, flush1_4 t, ?_⟩
  rw [mem_row_block_128]
  intro a
  match a with
  | ⟨0, _⟩ =>
    show win1_4.index t (0 : Fin 2) * 4000 ≤ (i 0).val ∧ (i 0).val < win1_4.index t (0 : Fin 2) * 4000 + 4000
    omega
  | ⟨1, _⟩ =>
    show win1_4.index t (1 : Fin 2) * 128 ≤ (i 1).val ∧ (i 1).val < win1_4.index t (1 : Fin 2) * 128 + 128
    omega

/-! ## The array the launch leaves -/

theorem denseSecond_final (c : Dev nD) :
    (dat1 (F := Ideal) V c).arrAt 4 cfg1.N
      = Cert.GraphSpec.dense (K := 128) (V c main_v48) (V c main_v49) (V c main_arg5) (V c main_v50) :=
  (dat1 (F := Ideal) V c).arrAt_eq_of_cover 4 _ (fun t _ => flushed_dense128 V c t) rows_covered_128

end Cert.KernelIdeal.RegionValue

end
-- ==== Proof.CosineValue.lean ====
/- The cosine launch: the 640000 edge cosines it leaves. The payload of the kernel's body at one edge of a block (a lane
   sum of products over the product of two norms, each no smaller than a constant); what each of the 125 grid points
   writes back, as block `t` of the edge cosines of the two arrays the launch is entered with; the blocks cover the
   result array. -/
import proofs.«121487_j43851616092221_1_alg».proof.Proof.Gen.KernelIdeal.Frame
import proofs.«121487_j43851616092221_1_alg».proof.Proof.GraphSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.SL.Sem Idealize.ShloMosaic.ValueIdx
open Cert.KernelIdeal Cert.KernelIdeal.Gen

-- the buffer contents the launch is entered with: every statement below holds for any such contents
variable (V : (c : Dev nD) → (b : Ref sig .tc) → Buf (Elt Ideal) ((c : Thread nD τ).loc b))

/-! ## The body's payload at an edge -/

/-- The index a lane reduction inserts coordinate `k` into, for the reduced index `e`, is `(e, k)`. -/
theorem lane_lift (h : S5120x128.Reduces [1] S5120) (e : Fin 5120) (k : Fin 128) :
    h.lift (ix1 e) k = ix2 e k := by
  funext a; apply Fin.ext
  match a with
  | ⟨0, _⟩ => rfl
  | ⟨1, _⟩ => rfl

/-- A lane sum of a block of 5120 edges by 128 lanes, at edge `e`: the sum over the 128 lanes of the block's row `e`. -/
theorem lane_sum (src : FVec Ideal S5120x128 .f32) (h : S5120x128.Reduces [1] S5120) (hφ : FKind.Formats .f32)
    (hacc : (0x00000000#32 : BitVec 32) = 0x00000000#32) (e : Fin 5120) :
    multiReduction (F := Ideal) .add [1] S5120 src 0x00000000#32 h hφ hacc (ix1 e) = ∑ k : Fin 128, src (ix2 e k) :=
  (Ideal.multiReduction_add_single src 0x00000000#32 h hφ hacc (ix1 e)).trans
    (Finset.sum_congr rfl fun k _ => congrArg src (lane_lift h e k))

/-- THE KERNEL'S PAYLOAD AT AN EDGE of a block: the lane sum of the products of the two rows, divided by the product of
    the two rows' norms (the square roots of their lane sums of squares), each norm no smaller than the constant `eps`. -/
theorem cosine_payload (x0 x1 : Vec Ideal S5120x128 .f32) (e : Fin 5120) :
    k2_pay1 (F := Ideal) x0 x1 (ix1 e)
      = Ideal.div (∑ k : Fin 128, x0 (ix2 e k) * x1 (ix2 e k))
          (max (Ideal.sqrt (∑ k : Fin 128, x0 (ix2 e k) * x0 (ix2 e k))) Cert.GraphSpec.eps
            * max (Ideal.sqrt (∑ k : Fin 128, x1 (ix2 e k) * x1 (ix2 e k))) Cert.GraphSpec.eps) := by
  have s01 := lane_sum (mulf x0 x1) reduces_S5120x128_S5120 (.inl rfl) rfl e
  have s00 := lane_sum (mulf x0 x0) reduces_S5120x128_S5120 (.inl rfl) rfl e
  have s11 := lane_sum (mulf x1 x1) reduces_S5120x128_S5120 (.inl rfl) rfl e
  simp only [mulf_apply] at s01 s00 s11
  unfold k2_pay1
  simp only [shapeCast_self]
  rw [divf_apply, mulf_apply, maximumf_apply, maximumf_apply, broadcast_apply]
  show Ideal.div (multiReduction (F := Ideal) .add [1] S5120 (mulf x0 x1) 0x00000000#32 _ _ _ (ix1 e))
      (max (Ideal.sqrt (multiReduction (F := Ideal) .add [1] S5120 (mulf x0 x0) 0x00000000#32 _ _ _ (ix1 e))) (Ideal.ofBits .f32 0x322BCC77#32)
        * max (Ideal.sqrt (multiReduction (F := Ideal) .add [1] S5120 (mulf x1 x1) 0x00000000#32 _ _ _ (ix1 e))) (Ideal.ofBits .f32 0x322BCC77#32)) = _
  rw [s01, s00, s11]

/-! ## What a grid point writes back -/

/-- The one-axis offset `[0]` of the body's store is the zero offset. -/
theorem zero_offset_edges : (![0] : Fin 1 → Nat) = fun _ => 0 := funext fun a => by fin_cases a; rfl
/-- The two-axis offset `[0, 0]` of the body's loads is the zero offset. -/
theorem zero_offset_block : (![0, 0] : Fin 2 → Nat) = fun _ => 0 := funext fun a => by fin_cases a <;> rfl

/-- The printed index maps, decided over the 125 grid points: both input windows are at the result window's edge block
    on the edge axis and at block 0 on the lane axis, and the result's block index is below 125. -/
theorem block_index_facts : ∀ t : Fin cfg2.N, win2_0.index t (0 : Fin 2) = win2_2.index t (0 : Fin 1)
    ∧ win2_0.index t (1 : Fin 2) = 0
    ∧ win2_1.index t (0 : Fin 2) = win2_2.index t (0 : Fin 1)
    ∧ win2_1.index t (1 : Fin 2) = 0
    ∧ win2_2.index t (0 : Fin 1) ≤ 124 :=
  (by decide +kernel : ∀ t : Fin grid2.N, _)

/-- Row `e` of the first operand's block at point `t` is row `r` of the array, `r` = the point's block index times
    5120 plus `e`: a block's coordinate in its array is the block index times the block's size plus the coordinate inside. -/
theorem block_row_0 (c : Dev nD) (t : Fin cfg2.N) (e : Fin 5120) (k : Fin 128) (r : Fin 640000)
    (hr : r.val = win2_2.index t (0 : Fin 1) * 5120 + e.val) :
    (iblk2 V c 0 t : Vec Ideal S5120x128 .f32) (ix2 e k) = (V c main_v58 : (⟨2, ![640000, 128]⟩ : Shape).Idx → EReal) (ix2 r k) := by
  obtain ⟨e0, e1, e2, e3, e4⟩ := block_index_facts t
  unfold iblk2
  show (V c main_v58 : (⟨2, ![640000, 128]⟩ : Shape).Idx → EReal) (((cfg2.win 0).blk t).view.emb (ix2 e k)) = _
  refine congrArg (V c main_v58 : (⟨2, ![640000, 128]⟩ : Shape).Idx → EReal) ?_
  funext a; apply Fin.ext
  match a with
  | ⟨0, _⟩ => show win2_0.index t (0 : Fin 2) * 5120 + 1 * e.val = r.val; omega
  | ⟨1, _⟩ => show win2_0.index t (1 : Fin 2) * 128 + 1 * k.val = k.val; omega

/-- The same for the second operand's block. -/
theorem block_row_1 (c : Dev nD) (t : Fin cfg2.N) (e : Fin 5120) (k : Fin 128) (r : Fin 640000)
    (hr : r.val = win2_2.index t (0 : Fin 1) * 5120 + e.val) :
    (iblk2 V c 1 t : Vec Ideal S5120x128 .f32) (ix2 e k) = (V c main_v65 : (⟨2, ![640000, 128]⟩ : Shape).Idx → EReal) (ix2 r k) := by
  obtain ⟨e0, e1, e2, e3, e4⟩ := block_index_facts t
  unfold iblk2
  show (V c main_v65 : (⟨2, ![640000, 128]⟩ : Shape).Idx → EReal) (((cfg2.win 1).blk t).view.emb (ix2 e k)) = _
  refine congrArg (V c main_v65 : (⟨2, ![640000, 128]⟩ : Shape).Idx → EReal) ?_
  funext a; apply Fin.ext
  match a with
  | ⟨0, _⟩ => show win2_1.index t (0 : Fin 2) * 5120 + 1 * e.val = r.val; omega
  | ⟨1, _⟩ => show win2_1.index t (1 : Fin 2) * 128 + 1 * k.val = k.val; omega

/-- WHAT POINT `t` WRITES BACK is block `t` of the edge cosines of the two arrays as the launch finds them. -/
theorem flushed_block (c : Dev nD) (t : Fin cfg2.N) :
    (dat2 (F := Ideal) V c).flushed 2 t
      = ((cfg2.win 2).blk t).view.read (Elt Ideal) (Cert.GraphSpec.cosine (V c main_v58) (V c main_v65)) := by
  show (cfg2.win 2).cut (grid2.coords t) ((dat2 V c).after 2 t) = _
  rw [after2_2]
  unfold out2_2
  rw [View.canon_unit_zero zero_offset_edges]
  simp only [View.ld_unit_zero (S := S5120x128) zero_offset_block]
  funext j
  obtain ⟨e, rfl⟩ : ∃ e : Fin 5120, j = ix1 e := ⟨j 0, eq_ix1 j⟩
  show k2_pay1 (F := Ideal) (iblk2 V c 0 t) (iblk2 V c 1 t) (ix1 e)
    = Cert.GraphSpec.cosine (V c main_v58) (V c main_v65) (((cfg2.win 2).blk t).view.emb (ix1 e))
  rw [cosine_payload (iblk2 V c 0 t) (iblk2 V c 1 t) e]
  -- the array's edge under the block's edge `e`
  have he : ((((cfg2.win 2).blk t).view.emb (ix1 e)) 0).val = win2_2.index t (0 : Fin 1) * 5120 + e.val := by
    show win2_2.index t (0 : Fin 1) * 5120 + 1 * e.val = _; omega
  have h0 : ∀ k : Fin 128, (iblk2 V c 0 t : Vec Ideal S5120x128 .f32) (ix2 e k)
      = (V c main_v58 : (⟨2, ![640000, 128]⟩ : Shape).Idx → EReal) (ix2 ⟨_, ((((cfg2.win 2).blk t).view.emb (ix1 e)) 0).isLt⟩ k) :=
    fun k => block_row_0 V c t e k _ he
  have h1 : ∀ k : Fin 128, (iblk2 V c 1 t : Vec Ideal S5120x128 .f32) (ix2 e k)
      = (V c main_v65 : (⟨2, ![640000, 128]⟩ : Shape).Idx → EReal) (ix2 ⟨_, ((((cfg2.win 2).blk t).view.emb (ix1 e)) 0).isLt⟩ k) :=
    fun k => block_row_1 V c t e k _ he
  simp only [h0, h1]
  rfl

/-! ## The blocks cover the result array -/

/-- An edge of the result array is in point `t`'s block iff it is in the block's range: from the block index times 5120,
    for 5120 edges. -/
theorem mem_edge_block (t : Fin cfg2.N) (i : S640000.Idx) :
    i ∈ ((cfg2.win 2).blk t).view.set ↔ ∀ a : Fin 1, win2_2.index t a * S5120.size a ≤ (i a).val
      ∧ (i a).val < win2_2.index t a * S5120.size a + S5120.size a := by
  show i ∈ ((View.whole main_v66).slice (win2_2.rect t)).set ↔ _
  rw [View.set_slice_whole, Rect.mem_set_unit]
  exact Iff.rfl

/-- Every one of the 125 edge blocks is some grid point's (decided over the grid). -/
theorem block_index_onto : ∀ q : Fin 125, ∃ t : Fin cfg2.N, win2_2.index t = ![q.val] :=
  (by decide +kernel : ∀ q : Fin 125, ∃ t : Fin grid2.N, win2_2.index t = ![q.val])

/-- THE COVER: edge `r` of the 640000 is in the block of the point whose block index is `r / 5120`, and every point writes
    its block back. -/
theorem edges_covered (i : S640000.Idx) :
    ∃ t : Fin cfg2.N, (cfg2.win 2).flush t = true ∧ i ∈ ((cfg2.win 2).blk t).view.set := by
  have hi : (i 0).val < 640000 := (i 0).isLt
  obtain ⟨t, ht⟩ := block_index_onto ⟨(i 0).val / 5120, by omega⟩
  have q : win2_2.index t (0 : Fin 1) = (i 0).val / 5120 := congrFun ht 0
  refine ⟨t, flush2_2 t, ?_⟩
  rw [mem_edge_block]
  intro a
  match a with
  | ⟨0, _⟩ =>
    show win2_2.index t (0 : Fin 1) * 5120 ≤ (i 0).val ∧ (i 0).val < win2_2.index t (0 : Fin 1) * 5120 + 5120
    omega

/-! ## The result array -/

/-- THE RESULT ARRAY AFTER THE LAUNCH: the 640000 edge cosines of the two arrays the launch is entered with — every point
    writes block `t` of them, and the blocks cover the array. -/
theorem cosine_final (c : Dev nD) :
    (dat2 (F := Ideal) V c).arrAt 2 cfg2.N = Cert.GraphSpec.cosine (V c main_v58) (V c main_v65) :=
  (dat2 (F := Ideal) V c).arrAt_eq_of_cover 2 _ (fun t _ => flushed_block V c t) edges_covered

end Cert.KernelIdeal.RegionValue

end
-- ==== Proof.HostStages.lean ====
/-
  The host computations the kernel program shares with the reference, each named once as a function of its
  operands, so that the two programs' values are compared stage by stage and a scatter or a gather is never opened.

  degreeOf idx      : how many edges name each node in idx, clamped below by one (a scatter-add of ones, then max with 1);
  wrapIndex idx     : node indices with negative values wrapped by +40000, as a 640000 × 1 index column;
  preNorm x deg     : every feature row scaled by its node's degree to the power -1/2;
  neighbourSum h s d: for every edge gather row s_e of h and add it into row d_e of a zero array;
  rowsAt h idx      : one feature row per edge, gathered at the wrapped index.
  The suffixes 2 / 128 are the number of features (the two layers' input widths).
-/
import proofs.«121487_j43851616092221_1_alg».proof.Proof.Gen.KernelIdeal
import Idealize.ShloMosaic.PureOps.Ideal

noncomputable section

namespace Cert.KernelIdeal.HostStages

open Idealize.ShloMosaic Idealize.ShloMosaic.TcCoe
open Cert.KernelIdeal Cert.KernelIdeal.Gen

abbrev EdgeIdx := IVec S640000 32
abbrev NodeVec := FVec Ideal S40000 .f32
abbrev Feat2 := FVec Ideal S40000x2 .f32
abbrev Feat128 := FVec Ideal S40000x128 .f32
abbrev EdgeFeat128 := FVec Ideal S640000x128 .f32

/-- The number of edges that name each node, at least one. -/
def degreeOf (idx : EdgeIdx) : NodeVec :=
  maximumf (broadcastInDim S40000 ![] bcast_S_S40000 (constant (F := Ideal) S_ .f32 0x3F800000#32))
    (Host.scatterAdd scatter_S40000_S640000x1_S640000_n_0_0_1
      (broadcastInDim S40000 ![] bcast_S_S40000 (constant (F := Ideal) S_ .f32 0x00000000#32))
      (broadcastInDim S640000x1 ![0] bcast_S640000_S640000x1_0 idx)
      (broadcastInDim S640000 ![] bcast_S_S640000 (constant (F := Ideal) S_ .f32 0x3F800000#32)))

/-- Negative node indices wrapped once by the number of nodes, laid out as the index column a gather reads. -/
def wrapIndex (idx : EdgeIdx) : IVec S640000x1 32 :=
  broadcastInDim S640000x1 ![0] bcast_S640000_S640000x1_0
    (select (cmpi .slt idx (broadcastInDim S640000 ![] bcast_S_S640000 (constantI S_ 32 0#32)))
      (addi idx (broadcastInDim S640000 ![] bcast_S_S640000 (constantI S_ 32 40000#32))) idx)

/-- Two-feature rows scaled by deg^(-1/2). -/
def preNorm2 (x : Feat2) (deg : NodeVec) : Feat2 :=
  mulf x (broadcastInDim S40000x2 ![0, 1] bcast_S40000x1_S40000x2_0_1
    (broadcastInDim S40000x1 ![0] bcast_S40000_S40000x1_0 (Host.rsqrt (F := Ideal) deg)))

/-- For every edge, row src_e of h added into row dst_e (two features). -/
def neighbourSum2 (h : Feat2) (src dst : EdgeIdx) : Feat2 :=
  Host.scatterAdd scatter_S40000x2_S640000x1_S640000x2_1_0_0_1
    (broadcastInDim S40000x2 ![] bcast_S_S40000x2 (constant (F := Ideal) S_ .f32 0x00000000#32))
    (broadcastInDim S640000x1 ![0] bcast_S640000_S640000x1_0 dst)
    (Host.gather gather_S40000x2_S640000x1_S640000x2_1_0_n_n_0_1_12 h (wrapIndex src))

/-- 128-feature rows scaled by deg^(-1/2). -/
def preNorm128 (x : Feat128) (deg : NodeVec) : Feat128 :=
  mulf x (broadcastInDim S40000x128 ![0, 1] bcast_S40000x1_S40000x128_0_1
    (broadcastInDim S40000x1 ![0] bcast_S40000_S40000x1_0 (Host.rsqrt (F := Ideal) deg)))

/-- One 128-feature row per edge, gathered at the wrapped index. -/
def rowsAt (h : Feat128) (idx : EdgeIdx) : EdgeFeat128 :=
  Host.gather gather_S40000x128_S640000x1_S640000x128_1_0_n_n_0_1_1128 h (wrapIndex idx)

/-- For every edge, row src_e of h added into row dst_e (128 features). -/
def neighbourSum128 (h : Feat128) (src dst : EdgeIdx) : Feat128 :=
  Host.scatterAdd scatter_S40000x128_S640000x1_S640000x128_1_0_0_1
    (broadcastInDim S40000x128 ![] bcast_S_S40000x128 (constant (F := Ideal) S_ .f32 0x00000000#32))
    (broadcastInDim S640000x1 ![0] bcast_S640000_S640000x1_0 dst)
    (rowsAt h src)

end Cert.KernelIdeal.HostStages

end
-- ==== Proof.KernelStretches.lean ====
/-
  What each launch finds in the arrays it reads, in terms of what the host operations just before it were given:
  the last stretch of host operations before a launch, run from ANY buffer contents W, leaves
    before the first dense launch : the neighbour sum of the degree-normalised input, the in-degree as a column,
                                    the bias as a row, the weights untouched;
    before the second dense launch: the same over the first layer's output;
    before the cosine launch      : the second layer's output gathered at the edges' two endpoints.
  Each is read off the operation list one operation at a time; nothing is evaluated.
-/
import proofs.«121487_j43851616092221_1_alg».proof.Proof.Gen.KernelIdeal.Launch
import proofs.«121487_j43851616092221_1_alg».proof.Proof.HostStages
import proofs.«121487_j43851616092221_1_alg».proof.Proof.GraphSpec
import Idealize.ShloMosaic.Lib.StableHlo.Run
import Idealize.ShloMosaic.Lib.Pipeline.Value
import Idealize.ShloMosaic.Lib.ValueLayout

set_option maxRecDepth 16384

noncomputable section

namespace Cert.KernelIdeal.HostValue

open Idealize.ShloMosaic Idealize.ShloMosaic.TcCoe Idealize.SL.Sem Idealize.ShloMosaic.StableHlo Idealize.ShloMosaic.ValueIdx
open Cert.KernelIdeal Cert.KernelIdeal.Gen Cert.KernelIdeal.HostStages

variable (W : Valuation τ sig (Elt Ideal))

/-- A length-40000 vector reshaped to a 40000 × 1 column holds, at (r, 0), the vector's entry r. -/
theorem column_of_vector (g : (⟨S40000, .f32⟩ : BufTy).Contents (Elt Ideal)) (h : S40000.ShapeCasts S40000x1) :
    (fun i => shapeCast S40000x1 g h i) = Cert.GraphSpec.colOf g := by
  funext i
  unfold Cert.GraphSpec.colOf
  refine shapeCast_apply g h i _ ?_
  rw [Shape.rowMajor_val_two, Shape.rowMajor_val_one]
  have h1 : (i 1).val < 1 := (i 1).isLt
  show (i 0).val = (i 0).val * 1 + (i 1).val
  omega

/-- A length-128 vector reshaped to a 1 × 128 row holds, at (0, q), the vector's entry q. -/
theorem row_of_vector (b : (⟨S128, .f32⟩ : BufTy).Contents (Elt Ideal)) (h : S128.ShapeCasts S1x128) :
    (fun i => shapeCast S1x128 b h i) = Cert.GraphSpec.rowOf b := by
  funext i
  unfold Cert.GraphSpec.rowOf
  refine shapeCast_apply b h i _ ?_
  rw [Shape.rowMajor_val_two, Shape.rowMajor_val_one]
  have h0 : (i 0).val < 1 := (i 0).isLt
  show (i 1).val = (i 0).val * 128 + (i 1).val
  omega

/-! ## Before the first dense launch -/

theorem first_agg_of : after (hostOps0_4 (F := Ideal)) W (Proc.devRef .tc main_v22)
    = neighbourSum2 (preNorm2 (W (Proc.devRef .tc main_arg0)) (W (Proc.devRef .tc main_v4))) (W (Proc.devRef .tc main_arg1)) (W (Proc.devRef .tc main_arg2)) := by
  after_results_simp
  rfl

theorem first_deg_of : after (hostOps0_4 (F := Ideal)) W (Proc.devRef .tc main_v23) = Cert.GraphSpec.colOf (W (Proc.devRef .tc main_v8)) := by
  after_results_simp
  exact column_of_vector _ _

theorem first_bias_of : after (hostOps0_4 (F := Ideal)) W (Proc.devRef .tc main_v24) = Cert.GraphSpec.rowOf (W (Proc.devRef .tc main_arg4)) := by
  after_results_simp
  exact row_of_vector _ _

theorem first_weights_of : after (hostOps0_4 (F := Ideal)) W (Proc.devRef .tc main_arg3) = W (Proc.devRef .tc main_arg3) := by
  after_results_simp

/-! ## Before the second dense launch -/

theorem second_agg_of : after (hostOps1_4 (F := Ideal)) W (Proc.devRef .tc main_v48)
    = neighbourSum128 (preNorm128 (W (Proc.devRef .tc main_v25)) (W (Proc.devRef .tc main_v30))) (W (Proc.devRef .tc main_arg1)) (W (Proc.devRef .tc main_arg2)) := by
  after_results_simp
  rfl

theorem second_deg_of : after (hostOps1_4 (F := Ideal)) W (Proc.devRef .tc main_v49) = Cert.GraphSpec.colOf (W (Proc.devRef .tc main_v34)) := by
  after_results_simp
  exact column_of_vector _ _

theorem second_bias_of : after (hostOps1_4 (F := Ideal)) W (Proc.devRef .tc main_v50) = Cert.GraphSpec.rowOf (W (Proc.devRef .tc main_arg6)) := by
  after_results_simp
  exact row_of_vector _ _

theorem second_weights_of : after (hostOps1_4 (F := Ideal)) W (Proc.devRef .tc main_arg5) = W (Proc.devRef .tc main_arg5) := by
  after_results_simp

/-! ## Before the cosine launch -/

theorem cosine_src_of : after (hostOps2 (F := Ideal)) W (Proc.devRef .tc main_v58)
    = rowsAt (W (Proc.devRef .tc main_v51)) (W (Proc.devRef .tc main_arg1)) := by
  after_results_simp
  rfl

theorem cosine_dst_of : after (hostOps2 (F := Ideal)) W (Proc.devRef .tc main_v65)
    = rowsAt (W (Proc.devRef .tc main_v51)) (W (Proc.devRef .tc main_arg2)) := by
  after_results_simp
  rfl

end Cert.KernelIdeal.HostValue

end
-- ==== Proof.Boundaries.lean ====
/-
  The arrays no host operation and no launch writes, followed along @main: at every point where a later stretch of host
  operations reads them, the index arrays, the weights and the biases still hold what the program was launched with, and
  the first dense layer's output is unchanged from the end of its launch until the operations that consume it.
-/
import proofs.«121487_j43851616092221_1_alg».proof.Proof.Gen.KernelIdeal.Frame
import Idealize.ShloMosaic.Lib.StableHlo.Run
import Idealize.ShloMosaic.PureOps.Ideal

set_option maxRecDepth 16384

noncomputable section

namespace Cert.KernelIdeal.HostValue

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- At launch a buffer holds the launch memory's contents. -/
theorem launch_at (b : Ref sig .tc) : W0 (F := Ideal) m ρ c (Proc.devRef .tc b) = m ((c : Thread nD τ).loc b) := rfl

/-! ## Up to the last host operations before the first dense launch -/

theorem kept4_arg0 : W4 (F := Ideal) m ρ c (Proc.devRef .tc main_arg0) = m ((c : Thread nD τ).loc main_arg0) := by
  show after hostOps0_3 (W3 m ρ c) (Proc.devRef .tc main_arg0) = _
  after_results_simp
theorem kept4_arg1 : W4 (F := Ideal) m ρ c (Proc.devRef .tc main_arg1) = m ((c : Thread nD τ).loc main_arg1) := by
  show after hostOps0_3 (W3 m ρ c) (Proc.devRef .tc main_arg1) = _
  after_results_simp
theorem kept4_arg2 : W4 (F := Ideal) m ρ c (Proc.devRef .tc main_arg2) = m ((c : Thread nD τ).loc main_arg2) := by
  show after hostOps0_3 (W3 m ρ c) (Proc.devRef .tc main_arg2) = _
  after_results_simp
theorem kept4_arg3 : W4 (F := Ideal) m ρ c (Proc.devRef .tc main_arg3) = m ((c : Thread nD τ).loc main_arg3) := by
  show after hostOps0_3 (W3 m ρ c) (Proc.devRef .tc main_arg3) = _
  after_results_simp
theorem kept4_arg4 : W4 (F := Ideal) m ρ c (Proc.devRef .tc main_arg4) = m ((c : Thread nD τ).loc main_arg4) := by
  show after hostOps0_3 (W3 m ρ c) (Proc.devRef .tc main_arg4) = _
  after_results_simp

/-! ## Through the first dense launch -/

theorem kept6_arg1 : W6 (F := Ideal) m ρ c (Proc.devRef .tc main_arg1) = m ((c : Thread nD τ).loc main_arg1) := by
  rw [W6_of_ne m ρ c main_arg1 (by decide)]
  show after hostOps0_4 (W4 m ρ c) (Proc.devRef .tc main_arg1) = _
  after_results_simp
theorem kept6_arg2 : W6 (F := Ideal) m ρ c (Proc.devRef .tc main_arg2) = m ((c : Thread nD τ).loc main_arg2) := by
  rw [W6_of_ne m ρ c main_arg2 (by decide)]
  show after hostOps0_4 (W4 m ρ c) (Proc.devRef .tc main_arg2) = _
  after_results_simp
theorem kept6_arg5 : W6 (F := Ideal) m ρ c (Proc.devRef .tc main_arg5) = m ((c : Thread nD τ).loc main_arg5) := by
  rw [W6_of_ne m ρ c main_arg5 (by decide)]
  show after hostOps0_4 (W4 m ρ c) (Proc.devRef .tc main_arg5) = _
  after_results_simp
theorem kept6_arg6 : W6 (F := Ideal) m ρ c (Proc.devRef .tc main_arg6) = m ((c : Thread nD τ).loc main_arg6) := by
  rw [W6_of_ne m ρ c main_arg6 (by decide)]
  show after hostOps0_4 (W4 m ρ c) (Proc.devRef .tc main_arg6) = _
  after_results_simp

/-! ## Up to the last host operations before the second dense launch -/

theorem kept10_arg1 : W10 (F := Ideal) m ρ c (Proc.devRef .tc main_arg1) = m ((c : Thread nD τ).loc main_arg1) := by
  show after hostOps1_3 (W9 m ρ c) (Proc.devRef .tc main_arg1) = _
  after_results_simp
  exact kept6_arg1 m ρ c
theorem kept10_arg2 : W10 (F := Ideal) m ρ c (Proc.devRef .tc main_arg2) = m ((c : Thread nD τ).loc main_arg2) := by
  show after hostOps1_3 (W9 m ρ c) (Proc.devRef .tc main_arg2) = _
  after_results_simp
  exact kept6_arg2 m ρ c
theorem kept10_arg5 : W10 (F := Ideal) m ρ c (Proc.devRef .tc main_arg5) = m ((c : Thread nD τ).loc main_arg5) := by
  show after hostOps1_3 (W9 m ρ c) (Proc.devRef .tc main_arg5) = _
  after_results_simp
  exact kept6_arg5 m ρ c
theorem kept10_arg6 : W10 (F := Ideal) m ρ c (Proc.devRef .tc main_arg6) = m ((c : Thread nD τ).loc main_arg6) := by
  show after hostOps1_3 (W9 m ρ c) (Proc.devRef .tc main_arg6) = _
  after_results_simp
  exact kept6_arg6 m ρ c
/-- The first layer's output is not touched between its launch and the operations that read it. -/
theorem kept10_layer1 : W10 (F := Ideal) m ρ c (Proc.devRef .tc main_v25) = W6 m ρ c (Proc.devRef .tc main_v25) := by
  show after hostOps1_3 (W9 m ρ c) (Proc.devRef .tc main_v25) = _
  after_results_simp

/-! ## Through the second dense launch -/

theorem kept12_arg1 : W12 (F := Ideal) m ρ c (Proc.devRef .tc main_arg1) = m ((c : Thread nD τ).loc main_arg1) := by
  rw [W12_of_ne m ρ c main_arg1 (by decide)]
  show after hostOps1_4 (W10 m ρ c) (Proc.devRef .tc main_arg1) = _
  after_results_simp
  exact kept10_arg1 m ρ c
theorem kept12_arg2 : W12 (F := Ideal) m ρ c (Proc.devRef .tc main_arg2) = m ((c : Thread nD τ).loc main_arg2) := by
  rw [W12_of_ne m ρ c main_arg2 (by decide)]
  show after hostOps1_4 (W10 m ρ c) (Proc.devRef .tc main_arg2) = _
  after_results_simp
  exact kept10_arg2 m ρ c

end Cert.KernelIdeal.HostValue

end
-- ==== Proof.DegreeOutFirst.lean ====
/- The out-degrees the first layer normalises its input by: the count of edges leaving each node, at least one, as the host computes it from the source indices before the first dense launch. -/
import proofs.«121487_j43851616092221_1_alg».proof.Proof.Gen.KernelIdeal.Frame
import proofs.«121487_j43851616092221_1_alg».proof.Proof.HostStages
import Idealize.ShloMosaic.Lib.StableHlo.Run

set_option maxRecDepth 16384

noncomputable section

namespace Cert.KernelIdeal.HostValue

open Idealize.ShloMosaic Idealize.ShloMosaic.TcCoe Idealize.SL.Sem Idealize.ShloMosaic.StableHlo
open Cert.KernelIdeal Cert.KernelIdeal.Gen Cert.KernelIdeal.HostStages

variable (m : (ℓ : Loc nD τ sig) → Buf (Elt Ideal) ℓ) (ρ : Dev nD → PrngReg) (c : Dev nD)

set_option maxHeartbeats 1000000 in
theorem outDegree_first : W4 (F := Ideal) m ρ c (Proc.devRef .tc main_v4) = degreeOf (m ((c : Thread nD τ).loc main_arg1)) := by
  show after hostOps0_3 (W3 m ρ c) (Proc.devRef .tc main_v4) = _
  after_results_simp
  unfold degreeOf
  simp only [TRef.ofBuf, TRef.toBuf, cast_eq, id, show W0 (F := Ideal) m ρ c (Proc.devRef .tc main_arg1) = m ((c : Thread nD τ).loc main_arg1) from rfl] <;> rfl

end Cert.KernelIdeal.HostValue

end
-- ==== Proof.DegreeInFirst.lean ====
/- The in-degrees the first dense launch normalises by: the count of edges entering each node, at least one, as the host computes it from the destination indices. -/
import proofs.«121487_j43851616092221_1_alg».proof.Proof.Gen.KernelIdeal.Frame
import proofs.«121487_j43851616092221_1_alg».proof.Proof.HostStages
import Idealize.ShloMosaic.Lib.StableHlo.Run

set_option maxRecDepth 16384

noncomputable section

namespace Cert.KernelIdeal.HostValue

open Idealize.ShloMosaic Idealize.ShloMosaic.TcCoe Idealize.SL.Sem Idealize.ShloMosaic.StableHlo
open Cert.KernelIdeal Cert.KernelIdeal.Gen Cert.KernelIdeal.HostStages

variable (m : (ℓ : Loc nD τ sig) → Buf (Elt Ideal) ℓ) (ρ : Dev nD → PrngReg) (c : Dev nD)

set_option maxHeartbeats 1000000 in
theorem inDegree_first : W4 (F := Ideal) m ρ c (Proc.devRef .tc main_v8) = degreeOf (m ((c : Thread nD τ).loc main_arg2)) := by
  show after hostOps0_3 (W3 m ρ c) (Proc.devRef .tc main_v8) = _
  after_results_simp
  unfold degreeOf
  simp only [TRef.ofBuf, TRef.toBuf, cast_eq, id, show W0 (F := Ideal) m ρ c (Proc.devRef .tc main_arg2) = m ((c : Thread nD τ).loc main_arg2) from rfl] <;> rfl

end Cert.KernelIdeal.HostValue

end
-- ==== Proof.DegreeOutSecond.lean ====
/- The out-degrees again, recomputed by the host before the second layer from the unchanged source indices. -/
import proofs.«121487_j43851616092221_1_alg».proof.Proof.Gen.KernelIdeal.Frame
import proofs.«121487_j43851616092221_1_alg».proof.Proof.HostStages
import proofs.«121487_j43851616092221_1_alg».proof.Proof.Boundaries
import Idealize.ShloMosaic.Lib.StableHlo.Run

set_option maxRecDepth 16384

noncomputable section

namespace Cert.KernelIdeal.HostValue

open Idealize.ShloMosaic Idealize.ShloMosaic.TcCoe Idealize.SL.Sem Idealize.ShloMosaic.StableHlo
open Cert.KernelIdeal Cert.KernelIdeal.Gen Cert.KernelIdeal.HostStages

variable (m : (ℓ : Loc nD τ sig) → Buf (Elt Ideal) ℓ) (ρ : Dev nD → PrngReg) (c : Dev nD)

set_option maxHeartbeats 1000000 in
theorem outDegree_second : W10 (F := Ideal) m ρ c (Proc.devRef .tc main_v30) = degreeOf (m ((c : Thread nD τ).loc main_arg1)) := by
  show after hostOps1_3 (W9 m ρ c) (Proc.devRef .tc main_v30) = _
  after_results_simp
  unfold degreeOf
  simp only [TRef.ofBuf, TRef.toBuf, cast_eq, id, kept6_arg1 m ρ c] <;> rfl

end Cert.KernelIdeal.HostValue

end
-- ==== Proof.DegreeInSecond.lean ====
/- The in-degrees again, recomputed by the host before the second dense launch from the unchanged destination indices. -/
import proofs.«121487_j43851616092221_1_alg».proof.Proof.Gen.KernelIdeal.Frame
import proofs.«121487_j43851616092221_1_alg».proof.Proof.HostStages
import proofs.«121487_j43851616092221_1_alg».proof.Proof.Boundaries
import Idealize.ShloMosaic.Lib.StableHlo.Run

set_option maxRecDepth 16384

noncomputable section

namespace Cert.KernelIdeal.HostValue

open Idealize.ShloMosaic Idealize.ShloMosaic.TcCoe Idealize.SL.Sem Idealize.ShloMosaic.StableHlo
open Cert.KernelIdeal Cert.KernelIdeal.Gen Cert.KernelIdeal.HostStages

variable (m : (ℓ : Loc nD τ sig) → Buf (Elt Ideal) ℓ) (ρ : Dev nD → PrngReg) (c : Dev nD)

set_option maxHeartbeats 1000000 in
theorem inDegree_second : W10 (F := Ideal) m ρ c (Proc.devRef .tc main_v34) = degreeOf (m ((c : Thread nD τ).loc main_arg2)) := by
  show after hostOps1_3 (W9 m ρ c) (Proc.devRef .tc main_v34) = _
  after_results_simp
  unfold degreeOf
  simp only [TRef.ofBuf, TRef.toBuf, cast_eq, id, kept6_arg2 m ρ c] <;> rfl

end Cert.KernelIdeal.HostValue

end
-- ==== Proof.RefStages.lean ====
/- The reference's three dense / cosine stages are the same whole-array functions. -/
import proofs.«121487_j43851616092221_1_alg».proof.Proof.Gen.ReferenceIdeal.Run
import proofs.«121487_j43851616092221_1_alg».proof.Proof.Gen.ReferenceIdeal.Read
import proofs.«121487_j43851616092221_1_alg».proof.Proof.GraphSpec
import Idealize.ShloMosaic.Lib.Pipeline.Value
import Idealize.ShloMosaic.Lib.ValueIdx
import Idealize.ShloMosaic.PureOps.Ideal.Laws

noncomputable section

namespace Cert.ReferenceIdeal.RefValue

open Idealize.ShloMosaic Idealize.ShloMosaic.TcCoe Idealize.SL.Sem Idealize.ShloMosaic.ValueIdx
open Cert.ReferenceIdeal Cert.ReferenceIdeal.Read

variable (x0 : (⟨S40000x2, .f32⟩ : BufTy).Contents (Elt Ideal)) (x1 x2 : (⟨S640000, .i32⟩ : BufTy).Contents (Elt Ideal))
  (x3 : (⟨S2x128, .f32⟩ : BufTy).Contents (Elt Ideal)) (x4 : (⟨S128, .f32⟩ : BufTy).Contents (Elt Ideal))
  (x5 : (⟨S128x128, .f32⟩ : BufTy).Contents (Elt Ideal)) (x6 : (⟨S128, .f32⟩ : BufTy).Contents (Elt Ideal))

/-! ## The two dense stages

Node `p`'s output lane `q` contracts row `p` of the aggregated features, each entry scaled by the reciprocal square
root of `p`'s clipped in-degree (a column broadcast along the row), against column `q` of the weights, and adds lane `q`
of the bias (a row broadcast down the nodes). -/

/-! ### The first dense stage (two input features) -/

/-- The contraction's left index at output `(p, q)`, term `k`, is the element `(p, k)`. -/
theorem firstLeft (p : Fin 40000) (q : Fin 128) (k : Fin 2) : lidx_main_v27 (ix2 p q) k = ix2 p k :=
  funext fun a => by match a with | ⟨0, _⟩ => rfl | ⟨1, _⟩ => rfl
/-- The contraction's right index at output `(p, q)`, term `k`, is the weight `(k, q)`. -/
theorem firstRight (p : Fin 40000) (q : Fin 128) (k : Fin 2) : ridx_main_v27 (ix2 p q) k = ix2 k q :=
  funext fun a => by match a with | ⟨0, _⟩ => rfl | ⟨1, _⟩ => rfl
/-- The scale broadcast along row `p` reads the column's entry `(p, 0)`. -/
theorem firstScaleRow (p : Fin 40000) (k : Fin 2) : idx_main_v25 (ix2 p k) = ix2 p (0 : Fin 1) :=
  funext fun a => by match a with | ⟨0, _⟩ => rfl | ⟨1, _⟩ => rfl
/-- The column's entry `(p, 0)` is the vector's entry `p`. -/
theorem firstScaleCol (p : Fin 40000) : idx_main_v24 (ix2 p (0 : Fin 1)) = ix1 p :=
  funext fun a => by match a with | ⟨0, _⟩ => rfl
/-- The bias broadcast down the nodes reads the row's entry `(0, q)`. -/
theorem firstBiasCol (p : Fin 40000) (q : Fin 128) : idx_main_v29 (ix2 p q) = ix2 (0 : Fin 1) q :=
  funext fun a => by match a with | ⟨0, _⟩ => rfl | ⟨1, _⟩ => rfl
/-- The row's entry `(0, q)` is the vector's entry `q`. -/
theorem firstBiasRow (q : Fin 128) : idx_main_v28 (ix2 (0 : Fin 1) q) = ix1 q :=
  funext fun a => by match a with | ⟨0, _⟩ => rfl

/-- The scale at `(p, k)` is the reciprocal square root of node `p`'s clipped in-degree. -/
theorem firstScale_at (p : Fin 40000) (k : Fin 2) :
    val_main_v25 (F := Ideal) x2 (ix2 p k) = Ideal.rsqrt (val_main_v8 (F := Ideal) x2 (ix1 p)) := by
  rw [val_main_v25_apply, firstScaleRow, val_main_v24_apply, firstScaleCol, val_main_v23_apply,
    Ideal.hostUnary_rsqrt_def]

/-- The contraction's term `k` at output `(p, q)`: the aggregated feature `(p, k)`, scaled, times the weight `(k, q)`. -/
theorem firstTerm_at (p : Fin 40000) (q : Fin 128) (k : Fin 2) :
    val_main_v26 (F := Ideal) x0 x1 x2 (lidx_main_v27 (ix2 p q) k) * x3 (ridx_main_v27 (ix2 p q) k)
      = val_main_v22 (F := Ideal) x0 x1 x2 (ix2 p k) * Ideal.rsqrt (val_main_v8 (F := Ideal) x2 (ix1 p))
          * x3 (ix2 k q) := by
  rw [firstLeft, firstRight, val_main_v26_apply, firstScale_at, Ideal.mulf_def]

/-- The bias at `(p, q)` is the bias vector's lane `q`. -/
theorem firstBias_at (p : Fin 40000) (q : Fin 128) : val_main_v29 (F := Ideal) x4 (ix2 p q) = x4 (ix1 q) := by
  rw [val_main_v29_apply, firstBiasCol, val_main_v28_apply, firstBiasRow]

theorem denseFirst_ref :
    val_main_v30 (F := Ideal) x0 x1 x2 x3 x4
      = Cert.GraphSpec.dense (K := 2) (val_main_v22 (F := Ideal) x0 x1 x2) (Cert.GraphSpec.colOf (val_main_v8 (F := Ideal) x2)) x3 (Cert.GraphSpec.rowOf x4) := by
  funext i
  obtain ⟨p, q, rfl⟩ : ∃ (p : Fin 40000) (q : Fin 128), i = ix2 p q := ⟨i 0, i 1, eq_ix2 i⟩
  rw [val_main_v30_apply, val_main_v27_apply, firstBias_at, Ideal.addf_def,
    Finset.sum_congr rfl fun k _ => firstTerm_at x0 x1 x2 x3 p q k]
  generalize val_main_v22 (F := Ideal) x0 x1 x2 = agg
  generalize val_main_v8 (F := Ideal) x2 = g
  rfl

/-! ### The second dense stage (128 hidden features) -/

/-- The contraction's left index at output `(p, q)`, term `k`, is the element `(p, k)`. -/
theorem secondLeft (p : Fin 40000) (q : Fin 128) (k : Fin 128) : lidx_main_v58 (ix2 p q) k = ix2 p k :=
  funext fun a => by match a with | ⟨0, _⟩ => rfl | ⟨1, _⟩ => rfl
/-- The contraction's right index at output `(p, q)`, term `k`, is the weight `(k, q)`. -/
theorem secondRight (p : Fin 40000) (q : Fin 128) (k : Fin 128) : ridx_main_v58 (ix2 p q) k = ix2 k q :=
  funext fun a => by match a with | ⟨0, _⟩ => rfl | ⟨1, _⟩ => rfl
/-- The scale broadcast along row `p` reads the column's entry `(p, 0)`. -/
theorem secondScaleRow (p : Fin 40000) (k : Fin 128) : idx_main_v56 (ix2 p k) = ix2 p (0 : Fin 1) :=
  funext fun a => by match a with | ⟨0, _⟩ => rfl | ⟨1, _⟩ => rfl
/-- The column's entry `(p, 0)` is the vector's entry `p`. -/
theorem secondScaleCol (p : Fin 40000) : idx_main_v55 (ix2 p (0 : Fin 1)) = ix1 p :=
  funext fun a => by match a with | ⟨0, _⟩ => rfl
/-- The bias broadcast down the nodes reads the row's entry `(0, q)`. -/
theorem secondBiasCol (p : Fin 40000) (q : Fin 128) : idx_main_v60 (ix2 p q) = ix2 (0 : Fin 1) q :=
  funext fun a => by match a with | ⟨0, _⟩ => rfl | ⟨1, _⟩ => rfl
/-- The row's entry `(0, q)` is the vector's entry `q`. -/
theorem secondBiasRow (q : Fin 128) : idx_main_v59 (ix2 (0 : Fin 1) q) = ix1 q :=
  funext fun a => by match a with | ⟨0, _⟩ => rfl

/-- The scale at `(p, k)` is the reciprocal square root of node `p`'s clipped in-degree. -/
theorem secondScale_at (p : Fin 40000) (k : Fin 128) :
    val_main_v56 (F := Ideal) x2 (ix2 p k) = Ideal.rsqrt (val_main_v39 (F := Ideal) x2 (ix1 p)) := by
  rw [val_main_v56_apply, secondScaleRow, val_main_v55_apply, secondScaleCol, val_main_v54_apply,
    Ideal.hostUnary_rsqrt_def]

/-- The contraction's term `k` at output `(p, q)`: the aggregated feature `(p, k)`, scaled, times the weight `(k, q)`. -/
theorem secondTerm_at (p : Fin 40000) (q : Fin 128) (k : Fin 128) :
    val_main_v57 (F := Ideal) x0 x1 x2 x3 x4 (lidx_main_v58 (ix2 p q) k) * x5 (ridx_main_v58 (ix2 p q) k)
      = val_main_v53 (F := Ideal) x0 x1 x2 x3 x4 (ix2 p k) * Ideal.rsqrt (val_main_v39 (F := Ideal) x2 (ix1 p))
          * x5 (ix2 k q) := by
  rw [secondLeft, secondRight, val_main_v57_apply, secondScale_at, Ideal.mulf_def]

/-- The bias at `(p, q)` is the bias vector's lane `q`. -/
theorem secondBias_at (p : Fin 40000) (q : Fin 128) : val_main_v60 (F := Ideal) x6 (ix2 p q) = x6 (ix1 q) := by
  rw [val_main_v60_apply, secondBiasCol, val_main_v59_apply, secondBiasRow]

theorem denseSecond_ref :
    val_main_v61 (F := Ideal) x0 x1 x2 x3 x4 x5 x6
      = Cert.GraphSpec.dense (K := 128) (val_main_v53 (F := Ideal) x0 x1 x2 x3 x4) (Cert.GraphSpec.colOf (val_main_v39 (F := Ideal) x2)) x5 (Cert.GraphSpec.rowOf x6) := by
  funext i
  obtain ⟨p, q, rfl⟩ : ∃ (p : Fin 40000) (q : Fin 128), i = ix2 p q := ⟨i 0, i 1, eq_ix2 i⟩
  rw [val_main_v61_apply, val_main_v58_apply, secondBias_at, Ideal.addf_def,
    Finset.sum_congr rfl fun k _ => secondTerm_at x0 x1 x2 x3 x4 x5 p q k]
  generalize val_main_v53 (F := Ideal) x0 x1 x2 x3 x4 = agg
  generalize val_main_v39 (F := Ideal) x2 = g
  rfl

/-! ## The cosine stage

Edge `e`'s three lane sums (the dot product and the two squared norms) each read row `e` of a gathered
`640000 × 128` array at lane `k`; each starts from the zero word, which is the real zero. -/

/-- The dot product's summand index at edge `e`, lane `k`, is the element `(e, k)`. -/
theorem edgeRow_dot (e : Fin 640000) (k : Fin 128) : idx_main_v77 (ix1 e) k = ix2 e k :=
  funext fun a => by match a with | ⟨0, _⟩ => rfl | ⟨1, _⟩ => rfl
/-- The left squared norm's summand index at edge `e`, lane `k`, is the element `(e, k)`. -/
theorem edgeRow_left (e : Fin 640000) (k : Fin 128) : idx_main_call4_v1 (ix1 e) k = ix2 e k :=
  funext fun a => by match a with | ⟨0, _⟩ => rfl | ⟨1, _⟩ => rfl
/-- The right squared norm's summand index at edge `e`, lane `k`, is the element `(e, k)`. -/
theorem edgeRow_right (e : Fin 640000) (k : Fin 128) : idx_main_call5_v1 (ix1 e) k = ix2 e k :=
  funext fun a => by match a with | ⟨0, _⟩ => rfl | ⟨1, _⟩ => rfl

/-- The dot product's summand at edge `e`, lane `k`. -/
theorem dotTerm_at (e : Fin 640000) (k : Fin 128) :
    val_main_v76 (F := Ideal) x0 x1 x2 x3 x4 x5 x6 (idx_main_v77 (ix1 e) k)
      = val_main_v68 (F := Ideal) x0 x1 x2 x3 x4 x5 x6 (ix2 e k) * val_main_v75 (F := Ideal) x0 x1 x2 x3 x4 x5 x6 (ix2 e k) := by
  rw [edgeRow_dot, val_main_v76_apply, Ideal.mulf_def]
/-- The left squared norm's summand at edge `e`, lane `k`. -/
theorem leftTerm_at (e : Fin 640000) (k : Fin 128) :
    val_main_call4_v0 (F := Ideal) x0 x1 x2 x3 x4 x5 x6 (idx_main_call4_v1 (ix1 e) k)
      = val_main_v68 (F := Ideal) x0 x1 x2 x3 x4 x5 x6 (ix2 e k) * val_main_v68 (F := Ideal) x0 x1 x2 x3 x4 x5 x6 (ix2 e k) := by
  rw [edgeRow_left, val_main_call4_v0_apply, Ideal.mulf_def]
/-- The right squared norm's summand at edge `e`, lane `k`. -/
theorem rightTerm_at (e : Fin 640000) (k : Fin 128) :
    val_main_call5_v0 (F := Ideal) x0 x1 x2 x3 x4 x5 x6 (idx_main_call5_v1 (ix1 e) k)
      = val_main_v75 (F := Ideal) x0 x1 x2 x3 x4 x5 x6 (ix2 e k) * val_main_v75 (F := Ideal) x0 x1 x2 x3 x4 x5 x6 (ix2 e k) := by
  rw [edgeRow_right, val_main_call5_v0_apply, Ideal.mulf_def]

/-- Edge `e`'s dot product of the two gathered rows. -/
theorem dot_at (e : Fin 640000) :
    val_main_v77 (F := Ideal) x0 x1 x2 x3 x4 x5 x6 (ix1 e)
      = ∑ k : Fin 128, val_main_v68 (F := Ideal) x0 x1 x2 x3 x4 x5 x6 (ix2 e k) * val_main_v75 (F := Ideal) x0 x1 x2 x3 x4 x5 x6 (ix2 e k) := by
  rw [val_main_v77_apply, val_main_cst_18_apply, Finset.sum_congr rfl fun k _ => dotTerm_at x0 x1 x2 x3 x4 x5 x6 e k]
  simp only [Ideal.ofBits_def, Ideal.ofBits_zero_f32, zero_add]

/-- Edge `e`'s left norm, floored at the small constant. -/
theorem leftNorm_at (e : Fin 640000) :
    val_main_v80 (F := Ideal) x0 x1 x2 x3 x4 x5 x6 (ix1 e)
      = max (Ideal.sqrt (∑ k : Fin 128, val_main_v68 (F := Ideal) x0 x1 x2 x3 x4 x5 x6 (ix2 e k) * val_main_v68 (F := Ideal) x0 x1 x2 x3 x4 x5 x6 (ix2 e k)))
          (Ideal.ofBits .f32 0x322BCC77#32) := by
  rw [val_main_v80_apply, val_main_v78_apply, val_main_call4_v1_apply, val_main_call4_cst_apply, val_main_v79_apply,
    val_main_cst_19_apply, Finset.sum_congr rfl fun k _ => leftTerm_at x0 x1 x2 x3 x4 x5 x6 e k]
  simp only [Ideal.maximumf_def, Ideal.hostUnary_sqrt_def, Ideal.ofBits_def, Ideal.ofBits_zero_f32, zero_add]

/-- Edge `e`'s right norm, floored at the small constant. -/
theorem rightNorm_at (e : Fin 640000) :
    val_main_v83 (F := Ideal) x0 x1 x2 x3 x4 x5 x6 (ix1 e)
      = max (Ideal.sqrt (∑ k : Fin 128, val_main_v75 (F := Ideal) x0 x1 x2 x3 x4 x5 x6 (ix2 e k) * val_main_v75 (F := Ideal) x0 x1 x2 x3 x4 x5 x6 (ix2 e k)))
          (Ideal.ofBits .f32 0x322BCC77#32) := by
  rw [val_main_v83_apply, val_main_v81_apply, val_main_call5_v1_apply, val_main_call5_cst_apply, val_main_v82_apply,
    val_main_cst_20_apply, Finset.sum_congr rfl fun k _ => rightTerm_at x0 x1 x2 x3 x4 x5 x6 e k]
  simp only [Ideal.maximumf_def, Ideal.hostUnary_sqrt_def, Ideal.ofBits_def, Ideal.ofBits_zero_f32, zero_add]

theorem cosine_ref :
    val_main_v85 (F := Ideal) x0 x1 x2 x3 x4 x5 x6
      = Cert.GraphSpec.cosine (val_main_v68 (F := Ideal) x0 x1 x2 x3 x4 x5 x6) (val_main_v75 (F := Ideal) x0 x1 x2 x3 x4 x5 x6) := by
  funext i
  obtain ⟨e, rfl⟩ : ∃ e : Fin 640000, i = ix1 e := ⟨i 0, eq_ix1 i⟩
  rw [val_main_v85_apply, val_main_v84_apply, dot_at, leftNorm_at, rightNorm_at, Ideal.hostDivf_def, Ideal.mulf_def]
  generalize val_main_v68 (F := Ideal) x0 x1 x2 x3 x4 x5 x6 = s
  generalize val_main_v75 (F := Ideal) x0 x1 x2 x3 x4 x5 x6 = d
  rfl

end Cert.ReferenceIdeal.RefValue

end
-- ==== Proof.RefHostStages.lean ====
/-
  The reference computes its degrees, its neighbour sums and its edge gathers with the very host operations the kernel
  program uses between its launches: each of those stages of the reference, opened down to the operands that differ,
  is the shared stage function of the same operands (the two programs print the same operations over their own copies
  of the shape and dimension records, which are equal by computation).
-/
import proofs.«121487_j43851616092221_1_alg».proof.Proof.Gen.ReferenceIdeal.Read
import proofs.«121487_j43851616092221_1_alg».proof.Proof.HostStages

noncomputable section

namespace Cert.ReferenceIdeal.RefValue

open Idealize.ShloMosaic Idealize.ShloMosaic.TcCoe
open Cert.ReferenceIdeal Cert.ReferenceIdeal.Read
open Cert.KernelIdeal.HostStages (degreeOf wrapIndex preNorm2 preNorm128 neighbourSum2 neighbourSum128 rowsAt)

variable (x0 : (⟨S40000x2, .f32⟩ : BufTy).Contents (Elt Ideal)) (x1 x2 : (⟨S640000, .i32⟩ : BufTy).Contents (Elt Ideal))
  (x3 : (⟨S2x128, .f32⟩ : BufTy).Contents (Elt Ideal)) (x4 : (⟨S128, .f32⟩ : BufTy).Contents (Elt Ideal))
  (x5 : (⟨S128x128, .f32⟩ : BufTy).Contents (Elt Ideal)) (x6 : (⟨S128, .f32⟩ : BufTy).Contents (Elt Ideal))

/-! ## The degrees: a scatter-add of ones, clamped below by one -/

set_option maxHeartbeats 400000 in
theorem outDegree_first_ref : val_main_v4 (F := Ideal) x1 = degreeOf x1 := by
  unfold val_main_v4 val_main_call0_v1 val_main_call0_v0 val_main_cst_1 val_main_v3 val_main_v1 val_main_cst_0 val_main_v2 val_main_v0 val_main_cst degreeOf
  rfl

set_option maxHeartbeats 400000 in
theorem inDegree_first_ref : val_main_v8 (F := Ideal) x2 = degreeOf x2 := by
  unfold val_main_v8 val_main_call1_v1 val_main_call1_v0 val_main_cst_3 val_main_v7 val_main_v5 val_main_cst_2 val_main_v6 val_main_v0 val_main_cst degreeOf
  rfl

set_option maxHeartbeats 400000 in
theorem outDegree_second_ref : val_main_v35 (F := Ideal) x1 = degreeOf x1 := by
  unfold val_main_v35 val_main_call2_v1 val_main_call2_v0 val_main_cst_8 val_main_v34 val_main_v32 val_main_cst_7 val_main_v33 val_main_v31 val_main_cst_6 degreeOf
  rfl

set_option maxHeartbeats 400000 in
theorem inDegree_second_ref : val_main_v39 (F := Ideal) x2 = degreeOf x2 := by
  unfold val_main_v39 val_main_call3_v1 val_main_call3_v0 val_main_cst_10 val_main_v38 val_main_v36 val_main_cst_9 val_main_v37 val_main_v31 val_main_cst_6 degreeOf
  rfl

/-! ## The wrapped index columns -/

set_option maxHeartbeats 400000 in
theorem wrap_src_first : val_main_v18 (F := Ideal) x1 = wrapIndex x1 := by
  unfold val_main_v18 val_main_v17 val_main_v14 val_main_v13 val_main_c val_main_v16 val_main_v15 val_main_c_4 wrapIndex
  rfl

set_option maxHeartbeats 400000 in
theorem wrap_src_second : val_main_v49 (F := Ideal) x1 = wrapIndex x1 := by
  unfold val_main_v49 val_main_v48 val_main_v45 val_main_v44 val_main_c_11 val_main_v47 val_main_v46 val_main_c_12 wrapIndex
  rfl

set_option maxHeartbeats 400000 in
theorem wrap_src_last : val_main_v67 (F := Ideal) x1 = wrapIndex x1 := by
  unfold val_main_v67 val_main_v66 val_main_v63 val_main_v62 val_main_c_14 val_main_v65 val_main_v64 val_main_c_15 wrapIndex
  rfl

set_option maxHeartbeats 400000 in
theorem wrap_dst_last : val_main_v74 (F := Ideal) x2 = wrapIndex x2 := by
  unfold val_main_v74 val_main_v73 val_main_v70 val_main_v69 val_main_c_16 val_main_v72 val_main_v71 val_main_c_17 wrapIndex
  rfl

/-! ## The neighbour sums and the edge gathers -/

set_option maxHeartbeats 400000 in
/-- The first layer's aggregate: the input scaled by out-degree^(-1/2), gathered along the edges and summed per destination. -/
theorem agg_first_ref : val_main_v22 (F := Ideal) x0 x1 x2 = neighbourSum2 (preNorm2 x0 (degreeOf x1)) x1 x2 := by
  unfold val_main_v22 val_main_v20 val_main_cst_5 val_main_v21 val_main_v19 val_main_v12 val_main_v11 val_main_v10 val_main_v9
  rw [outDegree_first_ref, wrap_src_first]
  unfold neighbourSum2 preNorm2
  rfl

set_option maxHeartbeats 400000 in
/-- The second layer's aggregate, the same over the first layer's output. -/
theorem agg_second_ref : val_main_v53 (F := Ideal) x0 x1 x2 x3 x4
    = neighbourSum128 (preNorm128 (val_main_v30 (F := Ideal) x0 x1 x2 x3 x4) (degreeOf x1)) x1 x2 := by
  unfold val_main_v53 val_main_v51 val_main_cst_13 val_main_v52 val_main_v50 val_main_v43 val_main_v42 val_main_v41 val_main_v40
  rw [outDegree_second_ref, wrap_src_second]
  unfold neighbourSum128 rowsAt preNorm128
  rfl

set_option maxHeartbeats 400000 in
/-- The second layer's output gathered at each edge's source. -/
theorem edge_src_ref : val_main_v68 (F := Ideal) x0 x1 x2 x3 x4 x5 x6 = rowsAt (val_main_v61 (F := Ideal) x0 x1 x2 x3 x4 x5 x6) x1 := by
  unfold val_main_v68
  rw [wrap_src_last]
  unfold rowsAt
  rfl

set_option maxHeartbeats 400000 in
/-- The second layer's output gathered at each edge's destination. -/
theorem edge_dst_ref : val_main_v75 (F := Ideal) x0 x1 x2 x3 x4 x5 x6 = rowsAt (val_main_v61 (F := Ideal) x0 x1 x2 x3 x4 x5 x6) x2 := by
  unfold val_main_v75
  rw [wrap_dst_last]
  unfold rowsAt
  rfl

end Cert.ReferenceIdeal.RefValue

end
-- ==== Proof.Assembly.lean ====
/-
  The kernel program's result is the reference's, stage by stage.

  Write x0 … x6 for the seven argument arrays as launched. Following @main:
    the first dense launch is entered with the neighbour sum of the out-degree-normalised input, the in-degree column,
      the first weights and bias, and leaves the degree-normalised dense layer of them: the reference's first layer;
    the second dense launch is entered with the same over that layer's output and leaves the reference's second layer;
    the cosine launch is entered with the second layer gathered at the edges' endpoints and leaves the edge cosines:
      the reference's result.
  Each step joins three facts: what the host operations before the launch hand it, the whole-array function the launch
  computes, and the reference's stage being that same function of the same operands.
-/
import proofs.«121487_j43851616092221_1_alg».proof.Proof.RunNamed
import proofs.«121487_j43851616092221_1_alg».proof.Proof.DenseFirstValue
import proofs.«121487_j43851616092221_1_alg».proof.Proof.DenseSecondValue
import proofs.«121487_j43851616092221_1_alg».proof.Proof.CosineValue
import proofs.«121487_j43851616092221_1_alg».proof.Proof.KernelStretches
import proofs.«121487_j43851616092221_1_alg».proof.Proof.Boundaries
import proofs.«121487_j43851616092221_1_alg».proof.Proof.DegreeOutFirst
import proofs.«121487_j43851616092221_1_alg».proof.Proof.DegreeInFirst
import proofs.«121487_j43851616092221_1_alg».proof.Proof.DegreeOutSecond
import proofs.«121487_j43851616092221_1_alg».proof.Proof.DegreeInSecond
import proofs.«121487_j43851616092221_1_alg».proof.Proof.RefStages
import proofs.«121487_j43851616092221_1_alg».proof.Proof.RefHostStages

set_option maxRecDepth 16384

noncomputable section

namespace Cert.KernelIdeal.HostValue

open Idealize.ShloMosaic Idealize.ShloMosaic.TcCoe Idealize.SL.Sem Idealize.ShloMosaic.StableHlo
open Cert.KernelIdeal Cert.KernelIdeal.Gen Cert.KernelIdeal.HostStages

variable (m : (ℓ : Loc nD τ sig) → Buf (Elt Ideal) ℓ) (ρ : Dev nD → PrngReg) (c : Dev nD)

/-- The first dense launch leaves the reference's first layer. -/
theorem layer_first : W6 (F := Ideal) m ρ c (Proc.devRef .tc main_v25)
    = Cert.ReferenceIdeal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have hagg : V5 m ρ c main_v22 = Cert.ReferenceIdeal.Read.val_main_v22 (F := Ideal) (m ((c : Thread nD τ).loc main_arg0)) (m ((c : Thread nD τ).loc main_arg1)) (m ((c : Thread nD τ).loc main_arg2)) := by
    show after hostOps0_4 (W4 m ρ c) (Proc.devRef .tc main_v22) = _
    rw [first_agg_of (W4 m ρ c), kept4_arg0, kept4_arg1, kept4_arg2, outDegree_first, Cert.ReferenceIdeal.RefValue.agg_first_ref]
  have hdeg : V5 m ρ c main_v23 = Cert.GraphSpec.colOf (Cert.ReferenceIdeal.Read.val_main_v8 (F := Ideal) (m ((c : Thread nD τ).loc main_arg2))) := by
    show after hostOps0_4 (W4 m ρ c) (Proc.devRef .tc main_v23) = _
    rw [first_deg_of (W4 m ρ c), inDegree_first, Cert.ReferenceIdeal.RefValue.inDegree_first_ref]
  have hw : V5 m ρ c main_arg3 = m ((c : Thread nD τ).loc main_arg3) := by
    show after hostOps0_4 (W4 m ρ c) (Proc.devRef .tc main_arg3) = _
    rw [first_weights_of (W4 m ρ c), kept4_arg3]
  have hb : V5 m ρ c main_v24 = Cert.GraphSpec.rowOf (m ((c : Thread nD τ).loc main_arg4)) := by
    show after hostOps0_4 (W4 m ρ c) (Proc.devRef .tc main_v24) = _
    rw [first_bias_of (W4 m ρ c), kept4_arg4]
  refine (W6_arr m ρ c 4).trans ((Cert.KernelIdeal.RegionValue.denseFirst_final (V5 m ρ) c).trans ?_)
  rw [hagg, hdeg, hw, hb]
  exact (Cert.ReferenceIdeal.RefValue.denseFirst_ref _ _ _ _ _).symm

/-- The second dense launch leaves the reference's second layer. -/
theorem layer_second : W12 (F := Ideal) m ρ c (Proc.devRef .tc main_v51)
    = Cert.ReferenceIdeal.Read.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have hagg : V11 m ρ c main_v48 = Cert.ReferenceIdeal.Read.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
    show after hostOps1_4 (W10 m ρ c) (Proc.devRef .tc main_v48) = _
    rw [second_agg_of (W10 m ρ c), kept10_layer1, layer_first, kept10_arg1, kept10_arg2, outDegree_second, Cert.ReferenceIdeal.RefValue.agg_second_ref]
  have hdeg : V11 m ρ c main_v49 = Cert.GraphSpec.colOf (Cert.ReferenceIdeal.Read.val_main_v39 (F := Ideal) (m ((c : Thread nD τ).loc main_arg2))) := by
    show after hostOps1_4 (W10 m ρ c) (Proc.devRef .tc main_v49) = _
    rw [second_deg_of (W10 m ρ c), inDegree_second, Cert.ReferenceIdeal.RefValue.inDegree_second_ref]
  have hw : V11 m ρ c main_arg5 = m ((c : Thread nD τ).loc main_arg5) := by
    show after hostOps1_4 (W10 m ρ c) (Proc.devRef .tc main_arg5) = _
    rw [second_weights_of (W10 m ρ c), kept10_arg5]
  have hb : V11 m ρ c main_v50 = Cert.GraphSpec.rowOf (m ((c : Thread nD τ).loc main_arg6)) := by
    show after hostOps1_4 (W10 m ρ c) (Proc.devRef .tc main_v50) = _
    rw [second_bias_of (W10 m ρ c), kept10_arg6]
  refine (W12_arr m ρ c 4).trans ((Cert.KernelIdeal.RegionValue.denseSecond_final (V11 m ρ) c).trans ?_)
  rw [hagg, hdeg, hw, hb]
  exact (Cert.ReferenceIdeal.RefValue.denseSecond_ref _ _ _ _ _ _ _).symm

/-- The cosine launch leaves the reference's result. -/
theorem result_eq : W14 (F := Ideal) m ρ c (Proc.devRef .tc main_v66)
    = Cert.ReferenceIdeal.Read.val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have hs : V13 m ρ c main_v58 = Cert.ReferenceIdeal.Read.val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
    show after hostOps2 (W12 m ρ c) (Proc.devRef .tc main_v58) = _
    rw [cosine_src_of (W12 m ρ c), layer_second, kept12_arg1, Cert.ReferenceIdeal.RefValue.edge_src_ref]
  have hd : V13 m ρ c main_v65 = Cert.ReferenceIdeal.Read.val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
    show after hostOps2 (W12 m ρ c) (Proc.devRef .tc main_v65) = _
    rw [cosine_dst_of (W12 m ρ c), layer_second, kept12_arg2, Cert.ReferenceIdeal.RefValue.edge_dst_ref]
  refine (W14_arr m ρ c 2).trans ((Cert.KernelIdeal.RegionValue.cosine_final (V13 m ρ) c).trans ?_)
  rw [hs, hd]
  exact (Cert.ReferenceIdeal.RefValue.cosine_ref _ _ _ _ _ _ _).symm

end Cert.KernelIdeal.HostValue

end
-- ==== Proof.lean ====
/-
  Two degree-normalised graph-convolution layers followed by an edge cosine, as three kernel launches with host
  gathers and scatter-adds between them, against the same computation written entirely on the host.

  Over the extended reals both programs compute, for every node, bias + Σ_k agg[·,k] · in_deg^(-1/2) · W[k,·] (twice,
  the aggregate being the neighbour sum of the rows scaled by out_deg^(-1/2)), and for every edge
  ⟨s, d⟩ / (max(‖s‖, ε) · max(‖d‖, ε)) of the second layer's rows at the edge's endpoints. The kernel's narrowing of the
  matrix product's operands is the identity on the extended reals, its product into a zero accumulator is the host's
  contraction term by term, and the degrees, neighbour sums and gathers are the same host operations on both sides, so no
  law beyond reading each stage at an index is used and the inputs' finiteness is never opened.

  Frames: the two kernel programs' runs are the several-launch frames; the reference's is its run with the result
  dropped. The idealisation rewrote nothing, so its soundness claim is the true proposition. The value claim names both
  results by the reference's last stage as a function of the seven argument arrays.
-/
import proofs.«121487_j43851616092221_1_alg».proof.Defs
import proofs.«121487_j43851616092221_1_alg».proof.Proof.Gen.Kernel
import proofs.«121487_j43851616092221_1_alg».proof.Proof.Gen.Kernel.Frame
import proofs.«121487_j43851616092221_1_alg».proof.Proof.Gen.KernelIdeal
import proofs.«121487_j43851616092221_1_alg».proof.Proof.Gen.KernelIdeal.Frame
import proofs.«121487_j43851616092221_1_alg».proof.Proof.Gen.ReferenceIdeal
import proofs.«121487_j43851616092221_1_alg».proof.Proof.Gen.ReferenceIdeal.Run
import proofs.«121487_j43851616092221_1_alg».proof.Proof.Gen.ReferenceIdeal.Read
import proofs.«121487_j43851616092221_1_alg».proof.Proof.Gen.Pre_finite_inputs
import proofs.«121487_j43851616092221_1_alg».proof.Proof.Assembly
import Idealize.ShloMosaic.Adequacy
import Idealize.ShloMosaic.Init

set_option maxRecDepth 16384

noncomputable section

namespace Cert.Proof

open Idealize.ShloMosaic Idealize.ShloMosaic.TcCoe Idealize.SL.Sem

/-- The word-level program terminates without a fault and leaves its arguments as launched. -/
theorem frame_word : Cert.frame_Kernel := fun m ρ _ => Cert.Kernel.Gen.frame m ρ

/-- So does the program read over the extended reals. -/
theorem frame_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the edge cosines of the second layer, as one function of the seven argument arrays: the kernel
    program's last launch leaves it (the three launches followed stage by stage), and it is the reference's last stage. -/
theorem same_result : Cert.algebraic_KernelIdeal_ReferenceIdeal := by
  intro m ρ m' ρ' _ hagree
  refine ⟨fun c => Cert.ReferenceIdeal.Read.val_main_v85 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.HostValue.result_eq m ρ c), (h c).2⟩)
      (Cert.KernelIdeal.Gen.run_named m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v85_eq, (hagree c).1, (hagree c).2.1, (hagree c).2.2.1, (hagree c).2.2.2.1,
      (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_word, frame_ideal, frame_reference, trivial, same_result⟩

end Cert.Proof

end
